-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x65536 : Shape := ⟨2, ![128, 65536]⟩
abbrev S32x65536 : Shape := ⟨2, ![32, 65536]⟩
abbrev S_ : Shape := ⟨0, ![]⟩

class Facts : Prop where
  bcast_S_S128x65536 : S_.BroadcastsInDim S128x65536 (![] : Fin 0 → Fin S128x65536.rank)
  reducesTo_S128x65536_S_d0_1 : S128x65536.ReducesTo [0, 1] S_
  h_S_ : 0 < S_.numel
  bcast_S_S32x65536 : S_.BroadcastsInDim S32x65536 (![] : Fin 0 → Fin S32x65536.rank)
  reducesTo_S32x65536_S_d0_1 : S32x65536.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S128x65536 .f32) (main_arg1 : FVec F S32x65536 .f32) (main_arg2 : IVec S32x65536 32) : IVec S_ 1 :=
  let main_v0 : FVec F S128x65536 .f32 := Host.absf main_arg0
  let main_cst : FVec F S_ .f32 := constant S_ .f32 0x7F800000#32
  let main_v1 : FVec F S128x65536 .f32 := broadcastInDim S128x65536 ![] bcast_S_S128x65536 main_cst
  let main_v2 : IVec S128x65536 1 := cmpf .olt main_v0 main_v1
  let main_c : IVec S_ 1 := constantI S_ 1 1#1
  let main_v3 : IVec S_ 1 := (fun x v => Host.reduce IntOp.andi x v reducesTo_S128x65536_S_d0_1 h_S_) main_v2 main_c
  let main_v4 : FVec F S32x65536 .f32 := Host.absf main_arg1
  let main_cst_0 : FVec F S_ .f32 := constant S_ .f32 0x7F800000#32
  let main_v5 : FVec F S32x65536 .f32 := broadcastInDim S32x65536 ![] bcast_S_S32x65536 main_cst_0
  let main_v6 : IVec S32x65536 1 := cmpf .olt main_v4 main_v5
  let main_c_1 : IVec S_ 1 := constantI S_ 1 1#1
  let main_v7 : IVec S_ 1 := (fun x v => Host.reduce IntOp.andi x v reducesTo_S32x65536_S_d0_1 h_S_) main_v6 main_c_1
  let main_v8 : IVec S_ 1 := andi main_v3 main_v7
  let main_c_2 : IVec S_ 32 := constantI S_ 32 4294901760#32
  let main_v9 : IVec S32x65536 32 := broadcastInDim S32x65536 ![] bcast_S_S32x65536 main_c_2
  let main_v10 : IVec S32x65536 1 := cmpi .sge main_arg2 main_v9
  let main_c_3 : IVec S_ 1 := constantI S_ 1 1#1
  let main_v11 : IVec S_ 1 := (fun x v => Host.reduce IntOp.andi x v reducesTo_S32x65536_S_d0_1 h_S_) main_v10 main_c_3
  let main_v12 : IVec S_ 1 := andi main_v8 main_v11
  let main_c_4 : IVec S_ 32 := constantI S_ 32 65536#32
  let main_v13 : IVec S32x65536 32 := broadcastInDim S32x65536 ![] bcast_S_S32x65536 main_c_4
  let main_v14 : IVec S32x65536 1 := cmpi .slt main_arg2 main_v13
  let main_c_5 : IVec S_ 1 := constantI S_ 1 1#1
  let main_v15 : IVec S_ 1 := (fun x v => Host.reduce IntOp.andi x v reducesTo_S32x65536_S_d0_1 h_S_) main_v14 main_c_5
  fn_part1 (F := F) main_v12 main_v15
-- ==== Kernel.lean ====
abbrev S128x65536 : Shape := ⟨2, ![128, 65536]⟩
abbrev S32x65536 : Shape := ⟨2, ![32, 65536]⟩
abbrev S_ : Shape := ⟨0, ![]⟩
abbrev S65536x128 : Shape := ⟨2, ![65536, 128]⟩
abbrev S32x65536x1 : Shape := ⟨3, ![32, 65536, 1]⟩
abbrev S1 : Shape := ⟨1, ![1]⟩
abbrev S1x1x1 : Shape := ⟨3, ![1, 1, 1]⟩
abbrev S32x65536x128 : Shape := ⟨3, ![32, 65536, 128]⟩
abbrev S65536x32 : Shape := ⟨2, ![65536, 32]⟩
abbrev S32x1024x128 : Shape := ⟨3, ![32, 1024, 128]⟩
abbrev S1024x32 : Shape := ⟨2, ![1024, 32]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 33
  | .vmem => 6
  | .smem => 0
  | _ => 0

abbrev bufTy : (tb : Table) → Fin (tcTables nBuf tb) → BufTy
  | .hbm, ⟨0, _⟩ => ⟨S128x65536, .f32⟩
  | .hbm, ⟨1, _⟩ => ⟨S32x65536, .f32⟩
  | .hbm, ⟨2, _⟩ => ⟨S32x65536, .i32⟩
  | .hbm, ⟨3, _⟩ => ⟨S_, .f32⟩
  | .hbm, ⟨4, _⟩ => ⟨S32x65536, .f32⟩
  | .hbm, ⟨5, _⟩ => ⟨S32x65536, .f32⟩
  | .hbm, ⟨6, _⟩ => ⟨S65536x128, .f32⟩
  | .hbm, ⟨7, _⟩ => ⟨S_, .i32⟩
  | .hbm, ⟨8, _⟩ => ⟨S32x65536, .i32⟩
  | .hbm, ⟨9, _⟩ => ⟨S32x65536, .i1⟩
  | .hbm, ⟨10, _⟩ => ⟨S_, .i32⟩
  | .hbm, ⟨11, _⟩ => ⟨S32x65536, .i32⟩
  | .hbm, ⟨12, _⟩ => ⟨S32x65536, .i32⟩
  | .hbm, ⟨13, _⟩ => ⟨S32x65536, .i32⟩
  | .hbm, ⟨14, _⟩ => ⟨S32x65536x1, .i32⟩
  | .hbm, ⟨15, _⟩ => ⟨S1, .i32⟩
  | .hbm, ⟨16, _⟩ => ⟨S_, .i32⟩
  | .hbm, ⟨17, _⟩ => ⟨S32x65536x1, .i32⟩
  | .hbm, ⟨18, _⟩ => ⟨S32x65536x1, .i1⟩
  | .hbm, ⟨19, _⟩ => ⟨S1x1x1, .i32⟩
  | .hbm, ⟨20, _⟩ => ⟨S32x65536x1, .i32⟩
  | .hbm, ⟨21, _⟩ => ⟨S32x65536x1, .i1⟩
  | .hbm, ⟨22, _⟩ => ⟨S32x65536x1, .i1⟩
  | .hbm, ⟨23, _⟩ => ⟨S_, .i1⟩
  | .hbm, ⟨24, _⟩ => ⟨S32x65536, .i1⟩
  | .hbm, ⟨25, _⟩ => ⟨S32x65536x128, .f32⟩
  | .hbm, ⟨26, _⟩ => ⟨S32x65536x128, .i1⟩
  | .hbm, ⟨27, _⟩ => ⟨S_, .f32⟩
  | .hbm, ⟨28, _⟩ => ⟨S32x65536x128, .f32⟩
  | .hbm, ⟨29, _⟩ => ⟨S32x65536x128, .f32⟩
  | .hbm, ⟨30, _⟩ => ⟨S65536x32, .f32⟩
  | .hbm, ⟨31, _⟩ => ⟨S65536x128, .f32⟩
  | .hbm, ⟨32, _⟩ => ⟨S128x65536, .f32⟩
  | .local _ .vmem, ⟨0, _⟩ => ⟨S32x1024x128, .f32⟩
  | .local _ .vmem, ⟨1, _⟩ => ⟨S32x1024x128, .f32⟩
  | .local _ .vmem, ⟨2, _⟩ => ⟨S1024x32, .f32⟩
  | .local _ .vmem, ⟨3, _⟩ => ⟨S1024x32, .f32⟩
  | .local _ .vmem, ⟨4, _⟩ => ⟨S1024x128, .f32⟩
  | .local _ .vmem, ⟨5, _⟩ => ⟨S1024x128, .f32⟩
  | _, _ => ⟨S128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32x65536 : S_.BroadcastsInDim S32x65536 (![] : Fin 0 → Fin S32x65536.rank)
  transposes_S128x65536_S65536x128_1_0 : S128x65536.Transposes [1, 0] S65536x128
  bcast_S32x65536_S32x65536x1_0_1 : S32x65536.BroadcastsInDim S32x65536x1 (![0, 1] : Fin 2 → Fin S32x65536x1.rank)
  bcast_S_S32x65536x1 : S_.BroadcastsInDim S32x65536x1 (![] : Fin 0 → Fin S32x65536x1.rank)
  bcast_S1_S1x1x1_2 : S1.BroadcastsInDim S1x1x1 (![2] : Fin 1 → Fin S1x1x1.rank)
  bcast_S1x1x1_S32x65536x1_0_1_2 : S1x1x1.BroadcastsInDim S32x65536x1 (![0, 1, 2] : Fin 3 → Fin S32x65536x1.rank)
  reducesTo_S32x65536x1_S32x65536_d2 : S32x65536x1.ReducesTo [2] S32x65536
  h_S_ : 0 < S_.numel
  bcast_S32x65536_S32x65536x128_0_1 : S32x65536.BroadcastsInDim S32x65536x128 (![0, 1] : Fin 2 → Fin S32x65536x128.rank)
  bcast_S_S32x65536x128 : S_.BroadcastsInDim S32x65536x128 (![] : Fin 0 → Fin S32x65536x128.rank)
  transposes_S32x65536_S65536x32_1_0 : S32x65536.Transposes [1, 0] S65536x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  reduces_S1024x32_S1024 : S1024x32.Reduces [1] S1024
  shapeCasts_S1024_S1024x1 : S1024.ShapeCasts S1024x1
  broadcasts_S1024x1_S1024x32 : S1024x1.Broadcasts S1024x32
  inb_S32x1024x128_S1x1024x128_0_0_0 : ∀ a, (![0, 0, 0] : Fin 3 → Nat) a + S1x1024x128.size a ≤ S32x1024x128.size a
  h_S1x1024x128 : 0 < S1x1024x128.numel
  shapeCasts_S1x1024x128_S1024x128 : S1x1024x128.ShapeCasts S1024x128
  slices_S1024x32_o0_0_S1024x1 : S1024x32.Slices ![0, 0] S1024x1
  broadcasts_S1024x1_S1024x128 : S1024x1.Broadcasts S1024x128
  inb_S32x1024x128_S1x1024x128_1_0_0 : ∀ a, (![1, 0, 0] : Fin 3 → Nat) a + S1x1024x128.size a ≤ S32x1024x128.size a
  slices_S1024x32_o0_1_S1024x1 : S1024x32.Slices ![0, 1] S1024x1
  inb_S32x1024x128_S1x1024x128_2_0_0 : ∀ a, (![2, 0, 0] : Fin 3 → Nat) a + S1x1024x128.size a ≤ S32x1024x128.size a
  slices_S1024x32_o0_2_S1024x1 : S1024x32.Slices ![0, 2] S1024x1
  inb_S32x1024x128_S1x1024x128_3_0_0 : ∀ a, (![3, 0, 0] : Fin 3 → Nat) a + S1x1024x128.size a ≤ S32x1024x128.size a
  slices_S1024x32_o0_3_S1024x1 : S1024x32.Slices ![0, 3] S1024x1
  inb_S32x1024x128_S1x1024x128_4_0_0 : ∀ a, (![4, 0, 0] : Fin 3 → Nat) a + S1x1024x128.size a ≤ S32x1024x128.size a
  slices_S1024x32_o0_4_S1024x1 : S1024x32.Slices ![0, 4] S1024x1
  inb_S32x1024x128_S1x1024x128_5_0_0 : ∀ a, (![5, 0, 0] : Fin 3 → Nat) a + S1x1024x128.size a ≤ S32x1024x128.size a
  slices_S1024x32_o0_5_S1024x1 : S1024x32.Slices ![0, 5] S1024x1
  inb_S32x1024x128_S1x1024x128_6_0_0 : ∀ a, (![6, 0, 0] : Fin 3 → Nat) a + S1x1024x128.size a ≤ S32x1024x128.size a
  slices_S1024x32_o0_6_S1024x1 : S1024x32.Slices ![0, 6] S1024x1
  inb_S32x1024x128_S1x1024x128_7_0_0 : ∀ a, (![7, 0, 0] : Fin 3 → Nat) a + S1x1024x128.size a ≤ S32x1024x128.size a
  slices_S1024x32_o0_7_S1024x1 : S1024x32.Slices ![0, 7] S1024x1
  inb_S32x1024x128_S1x1024x128_8_0_0 : ∀ a, (![8, 0, 0] : Fin 3 → Nat) a + S1x1024x128.size a ≤ S32x1024x128.size a
  slices_S1024x32_o0_8_S1024x1 : S1024x32.Slices ![0, 8] S1024x1
  inb_S32x1024x128_S1x1024x128_9_0_0 : ∀ a, (![9, 0, 0] : Fin 3 → Nat) a + S1x1024x128.size a ≤ S32x1024x128.size a
  slices_S1024x32_o0_9_S1024x1 : S1024x32.Slices ![0, 9] S1024x1
  inb_S32x1024x128_S1x1024x128_10_0_0 : ∀ a, (![10, 0, 0] : Fin 3 → Nat) a + S1x1024x128.size a ≤ S32x1024x128.size a
  slices_S1024x32_o0_10_S1024x1 : S1024x32.Slices ![0, 10] S1024x1
  inb_S32x1024x128_S1x1024x128_11_0_0 : ∀ a, (![11, 0, 0] : Fin 3 → Nat) a + S1x1024x128.size a ≤ S32x1024x128.size a
  slices_S1024x32_o0_11_S1024x1 : S1024x32.Slices ![0, 11] S1024x1
  inb_S32x1024x128_S1x1024x128_12_0_0 : ∀ a, (![12, 0, 0] : Fin 3 → Nat) a + S1x1024x128.size a ≤ S32x1024x128.size a
  slices_S1024x32_o0_12_S1024x1 : S1024x32.Slices ![0, 12] S1024x1
  inb_S32x1024x128_S1x1024x128_13_0_0 : ∀ a, (![13, 0, 0] : Fin 3 → Nat) a + S1x1024x128.size a ≤ S32x1024x128.size a
  slices_S1024x32_o0_13_S1024x1 : S1024x32.Slices ![0, 13] S1024x1
  inb_S32x1024x128_S1x1024x128_14_0_0 : ∀ a, (![14, 0, 0] : Fin 3 → Nat) a + S1x1024x128.size a ≤ S32x1024x128.size a
  slices_S1024x32_o0_14_S1024x1 : S1024x32.Slices ![0, 14] S1024x1
  inb_S32x1024x128_S1x1024x128_15_0_0 : ∀ a, (![15, 0, 0] : Fin 3 → Nat) a + S1x1024x128.size a ≤ S32x1024x128.size a
  slices_S1024x32_o0_15_S1024x1 : S1024x32.Slices ![0, 15] S1024x1
  inb_S32x1024x128_S1x1024x128_16_0_0 : ∀ a, (![16, 0, 0] : Fin 3 → Nat) a + S1x1024x128.size a ≤ S32x1024x128.size a
  slices_S1024x32_o0_16_S1024x1 : S1024x32.Slices ![0, 16] S1024x1
  inb_S32x1024x128_S1x1024x128_17_0_0 : ∀ a, (![17, 0, 0] : Fin 3 → Nat) a + S1x1024x128.size a ≤ S32x1024x128.size a
  slices_S1024x32_o0_17_S1024x1 : S1024x32.Slices ![0, 17] S1024x1
  inb_S32x1024x128_S1x1024x128_18_0_0 : ∀ a, (![18, 0, 0] : Fin 3 → Nat) a + S1x1024x128.size a ≤ S32x1024x128.size a
  slices_S1024x32_o0_18_S1024x1 : S1024x32.Slices ![0, 18] S1024x1
  inb_S32x1024x128_S1x1024x128_19_0_0 : ∀ a, (![19, 0, 0] : Fin 3 → Nat) a + S1x1024x128.size a ≤ S32x1024x128.size a
  slices_S1024x32_o0_19_S1024x1 : S1024x32.Slices ![0, 19] S1024x1
  inb_S32x1024x128_S1x1024x128_20_0_0 : ∀ a, (![20, 0, 0] : Fin 3 → Nat) a + S1x1024x128.size a ≤ S32x1024x128.size a
  slices_S1024x32_o0_20_S1024x1 : S1024x32.Slices ![0, 20] S1024x1
  inb_S32x1024x128_S1x1024x128_21_0_0 : ∀ a, (![21, 0, 0] : Fin 3 → Nat) a + S1x1024x128.size a ≤ S32x1024x128.size a
  slices_S1024x32_o0_21_S1024x1 : S1024x32.Slices ![0, 21] S1024x1
  inb_S32x1024x128_S1x1024x128_22_0_0 : ∀ a, (![22, 0, 0] : Fin 3 → Nat) a + S1x1024x128.size a ≤ S32x1024x128.size a
  slices_S1024x32_o0_22_S1024x1 : S1024x32.Slices ![0, 22] S1024x1
  inb_S32x1024x128_S1x1024x128_23_0_0 : ∀ a, (![23, 0, 0] : Fin 3 → Nat) a + S1x1024x128.size a ≤ S32x1024x128.size a
  slices_S1024x32_o0_23_S1024x1 : S1024x32.Slices ![0, 23] S1024x1
  inb_S32x1024x128_S1x1024x128_24_0_0 : ∀ a, (![24, 0, 0] : Fin 3 → Nat) a + S1x1024x128.size a ≤ S32x1024x128.size a
  slices_S1024x32_o0_24_S1024x1 : S1024x32.Slices ![0, 24] S1024x1
  inb_S32x1024x128_S1x1024x128_25_0_0 : ∀ a, (![25, 0, 0] : Fin 3 → Nat) a + S1x1024x128.size a ≤ S32x1024x128.size a
  slices_S1024x32_o0_25_S1024x1 : S1024x32.Slices ![0, 25] S1024x1
  inb_S32x1024x128_S1x1024x128_26_0_0 : ∀ a, (![26, 0, 0] : Fin 3 → Nat) a + S1x1024x128.size a ≤ S32x1024x128.size a
  slices_S1024x32_o0_26_S1024x1 : S1024x32.Slices ![0, 26] S1024x1
  inb_S32x1024x128_S1x1024x128_27_0_0 : ∀ a, (![27, 0, 0] : Fin 3 → Nat) a + S1x1024x128.size a ≤ S32x1024x128.size a
  slices_S1024x32_o0_27_S1024x1 : S1024x32.Slices ![0, 27] S1024x1
  inb_S32x1024x128_S1x1024x128_28_0_0 : ∀ a, (![28, 0, 0] : Fin 3 → Nat) a + S1x1024x128.size a ≤ S32x1024x128.size a
  slices_S1024x32_o0_28_S1024x1 : S1024x32.Slices ![0, 28] S1024x1
  inb_S32x1024x128_S1x1024x128_29_0_0 : ∀ a, (![29, 0, 0] : Fin 3 → Nat) a + S1x1024x128.size a ≤ S32x1024x128.size a
  slices_S1024x32_o0_29_S1024x1 : S1024x32.Slices ![0, 29] S1024x1
  inb_S32x1024x128_S1x1024x128_30_0_0 : ∀ a, (![30, 0, 0] : Fin 3 → Nat) a + S1x1024x128.size a ≤ S32x1024x128.size a
  slices_S1024x32_o0_30_S1024x1 : S1024x32.Slices ![0, 30] S1024x1
  inb_S32x1024x128_S1x1024x128_31_0_0 : ∀ a, (![31, 0, 0] : Fin 3 → Nat) a + S1x1024x128.size a ≤ S32x1024x128.size a
  slices_S1024x32_o0_31_S1024x1 : S1024x32.Slices ![0, 31] S1024x1
  inb_S1024x128_S1024x128_0_0 : ∀ a, (![0, 0] : Fin 2 → Nat) a + S1024x128.size a ≤ S1024x128.size a
  h_S1024x128 : 0 < S1024x128.numel
  transposes_S65536x128_S128x65536_1_0 : S65536x128.Transposes [1, 0] S128x65536
  gather_S65536x128_S32x65536x1_S32x65536x128_2_0_n_n_0_2_1128_wf : GatherDims.WF S65536x128 S32x65536x1 S32x65536x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024x128.size a ≤ S32x65536x128.size a
  hwx0_0 : ∀ i : grid0.Coords, EltTy.bits .f32 = 32 ∨ (Rect.block (s := S32x65536x128) S32x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S65536x32.size a
  hwx0_1 : ∀ i : grid0.Coords, EltTy.bits .f32 = 32 ∨ (Rect.block (s := S65536x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S65536x128.size a
  hwx0_2 : ∀ i : grid0.Coords, EltTy.bits .f32 = 32 ∨ (Rect.block (s := S65536x128) S1024x128.size (cc0_transform_2 i) (hinb0_2 i)).WholeWords (EltTy.packing .f32)

variable [Facts₀]

def gather_S65536x128_S32x65536x1_S32x65536x128_2_0_n_n_0_2_1128 : GatherDims S65536x128 S32x65536x1 S32x65536x128 where
  offsetDims := [2]
  collapsedSliceDims := [0]
  operandBatchingDims := []
  startIndicesBatchingDims := []
  startIndexMap := [0]
  indexVectorDim := 2
  sliceSizes := ![1, 128]
  wf := gather_S65536x128_S32x65536x1_S32x65536x128_2_0_n_n_0_2_1128_wf

abbrev win0_0 : Pipeline.Window sig grid0 :=
  Pipeline.Window.ofSpec (Memref.whole main_v3) S32x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x65536 : Shape := ⟨2, ![128, 65536]⟩
abbrev S32x65536 : Shape := ⟨2, ![32, 65536]⟩
abbrev S_ : Shape := ⟨0, ![]⟩
abbrev S32x65536x1 : Shape := ⟨3, ![32, 65536, 1]⟩
abbrev S128x32x65536 : Shape := ⟨3, ![128, 32, 65536]⟩
abbrev S65536 : Shape := ⟨1, ![65536]⟩
abbrev S1x65536 : Shape := ⟨2, ![1, 65536]⟩
abbrev S1x32x65536 : Shape := ⟨3, ![1, 32, 65536]⟩

abbrev nBuf : Space → Nat
  | .hbm => 34
  | .vmem => 0
  | .smem => 0
  | _ => 0

abbrev bufTy : (tb : Table) → Fin (tcTables nBuf tb) → BufTy
  | .hbm, ⟨0, _⟩ => ⟨S128x65536, .f32⟩
  | .hbm, ⟨1, _⟩ => ⟨S32x65536, .f32⟩
  | .hbm, ⟨2, _⟩ => ⟨S32x65536, .i32⟩
  | .hbm, ⟨3, _⟩ => ⟨S_, .i32⟩
  | .hbm, ⟨4, _⟩ => ⟨S32x65536, .i32⟩
  | .hbm, ⟨5, _⟩ => ⟨S32x65536, .i1⟩
  | .hbm, ⟨6, _⟩ => ⟨S_, .i32⟩
  | .hbm, ⟨7, _⟩ => ⟨S32x65536, .i32⟩
  | .hbm, ⟨8, _⟩ => ⟨S32x65536, .i32⟩
  | .hbm, ⟨9, _⟩ => ⟨S32x65536, .i32⟩
  | .hbm, ⟨10, _⟩ => ⟨S32x65536x1, .i32⟩
  | .hbm, ⟨11, _⟩ => ⟨S128x32x65536, .f32⟩
  | .hbm, ⟨12, _⟩ => ⟨S_, .f32⟩
  | .hbm, ⟨13, _⟩ => ⟨S32x65536, .f32⟩
  | .hbm, ⟨14, _⟩ => ⟨S32x65536, .f32⟩
  | .hbm, ⟨15, _⟩ => ⟨S_, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S1x65536, .f32⟩
  | .hbm, ⟨21, _⟩ => ⟨S32x65536, .f32⟩
  | .hbm, ⟨22, _⟩ => ⟨S32x65536, .f32⟩
  | .hbm, ⟨23, _⟩ => ⟨S32x65536, .f32⟩
  | .hbm, ⟨24, _⟩ => ⟨S_, .f32⟩
  | .hbm, ⟨25, _⟩ => ⟨S65536, .f32⟩
  | .hbm, ⟨26, _⟩ => ⟨S1x65536, .f32⟩
  | .hbm, ⟨27, _⟩ => ⟨S32x65536, .f32⟩
  | .hbm, ⟨28, _⟩ => ⟨S32x65536, .f32⟩
  | .hbm, ⟨29, _⟩ => ⟨S1x32x65536, .f32⟩
  | .hbm, ⟨30, _⟩ => ⟨S128x32x65536, .f32⟩
  | .hbm, ⟨31, _⟩ => ⟨S128x32x65536, .f32⟩
  | .hbm, ⟨32, _⟩ => ⟨S_, .f32⟩
  | .hbm, ⟨33, _⟩ => ⟨S128x65536, .f32⟩
  | _, _ => ⟨S128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S32x65536 : S_.BroadcastsInDim S32x65536 (![] : Fin 0 → Fin S32x65536.rank)
  bcast_S32x65536_S32x65536x1_0_1 : S32x65536.BroadcastsInDim S32x65536x1 (![0, 1] : Fin 2 → Fin S32x65536x1.rank)
  reducesTo_S32x65536_S65536_d0 : S32x65536.ReducesTo [0] S65536
  h_S_ : 0 < S_.numel
  bcast_S_S65536 : S_.BroadcastsInDim S65536 (![] : Fin 0 → Fin S65536.rank)
  bcast_S65536_S1x65536_1 : S65536.BroadcastsInDim S1x65536 (![1] : Fin 1 → Fin S1x65536.rank)
  bcast_S1x65536_S32x65536_0_1 : S1x65536.BroadcastsInDim S32x65536 (![0, 1] : Fin 2 → Fin S32x65536.rank)
  bcast_S32x65536_S1x32x65536_1_2 : S32x65536.BroadcastsInDim S1x32x65536 (![1, 2] : Fin 2 → Fin S1x32x65536.rank)
  bcast_S1x32x65536_S128x32x65536_0_1_2 : S1x32x65536.BroadcastsInDim S128x32x65536 (![0, 1, 2] : Fin 3 → Fin S128x32x65536.rank)
  reducesTo_S128x32x65536_S128x65536_d1 : S128x32x65536.ReducesTo [1] S128x65536
  gather_S128x65536_S32x65536x1_S128x32x65536_0_1_n_n_1_2_1281_wf : GatherDims.WF S128x65536 S32x65536x1 S128x32x65536 [0] [1] [] [1] [] 2 ![128, 1]

variable [Facts₀]

def gather_S128x65536_S32x65536x1_S128x32x65536_0_1_n_n_1_2_1281 : GatherDims S128x65536 S32x65536x1 S128x32x65536 where
  offsetDims := [0]
  collapsedSliceDims := [1]
  operandBatchingDims := []
  startIndicesBatchingDims := []
  startIndexMap := [1]
  indexVectorDim := 2
  sliceSizes := ![128, 1]
  wf := gather_S128x65536_S32x65536x1_S128x32x65536_0_1_n_n_1_2_1281_wf

class Facts : Prop extends Facts₀ where

variable [Facts]
-- ==== Proof.Spec.lean ====
/-
  The value both programs compute, as one function of the three argument arrays.

  For an output column `o` the 32 logits `c[k, o] · 1` are turned into softmax weights: with `M` their largest (taken
  from −∞), `e k = exp (logit k − M)`, `S = ∑ k, e k` and `w k = e k / S`. The result at `(b, o)` is the weighted sum
  `∑ k, x[b, j k] · w k`, where `j k` is the column of `x` that the index word `idx[k, o]` names: a negative word is
  wrapped once by adding 65536, and the wrapped word, read signed, is clamped into `[0, 65535]`.

  The softmax and the mixing are stated over an abstract row of 32 extended reals, so that a block of a tiled
  computation and a whole-array computation meet in the same terms.
-/
import Idealize.ShloMosaic.PureOps.Ideal
import Idealize.ShloMosaic.PureOps.Ideal.Laws
import Idealize.ShloMosaic.Lib.ValueIdx

noncomputable section

namespace Cert.SoftmaxMix

open Idealize.ShloMosaic Idealize.ShloMosaic.ValueIdx

/-- The largest of a row's 32 entries, the maximum taken from −∞. -/
def rowMax (r : Fin 32 → EReal) : EReal :=
  (Finset.univ : Finset (Fin 32)).fold max (Ideal.ofBits .f32 0xFF800000#32) r

/-- Entry `k` shifted by the row's maximum and exponentiated. -/
def rowExp (r : Fin 32 → EReal) (k : Fin 32) : EReal := Ideal.exp (r k - rowMax r)

/-- The sum of the row's shifted exponentials. -/
def rowSum (r : Fin 32 → EReal) : EReal := ∑ k : Fin 32, rowExp r k

/-- The softmax weight of entry `k`. -/
def rowWeight (r : Fin 32 → EReal) (k : Fin 32) : EReal := Ideal.div (rowExp r k) (rowSum r)

/-- The values `v` mixed by the softmax weights of the logits `r`. -/
def mix (v r : Fin 32 → EReal) : EReal := ∑ k : Fin 32, v k * rowWeight r k

/-- An index word with a negative value wrapped once: `i + 65536` when `i < 0` (signed), else `i`. -/
def wrapIdx (i : BitVec 32) : BitVec 32 := Scalar.select (IntOp.cmpi .slt i 0#32) (IntOp.addi i 65536#32) i

/-- The column of a 65536-column table that an index word names: the wrapped word read signed, clamped into the table. -/
def pick (i : BitVec 32) : Fin 65536 := ⟨min (wrapIdx i).toInt.toNat 65535, by omega⟩

/-- An index word the table's columns can be addressed by, counting from either end: `−65536 ≤ i < 65536`, as the two
    signed comparisons' bits. -/
def InRange (i : BitVec 32) : Prop :=
  IntOp.cmpi .sge i 4294901760#32 = 1#1 ∧ IntOp.cmpi .slt i 65536#32 = 1#1

abbrev SX : Shape := ⟨2, ![128, 65536]⟩
abbrev SC : Shape := ⟨2, ![32, 65536]⟩

/-- The result array: at `(b, o)`, the entries `x[b, pick idx[k, o]]` mixed by the softmax of the logits `c[k, o] · 1`. -/
def result (x : SX.Idx → EReal) (c : SC.Idx → EReal) (idx : SC.Idx → BitVec 32) : SX.Idx → EReal :=
  fun i => mix (fun k => x (ix2 (i 0) (pick (idx (ix2 k (i 1))))))
    (fun k => c (ix2 k (i 1)) * Ideal.ofBits .f32 0x3F800000#32)

theorem result_apply (x : SX.Idx → EReal) (c : SC.Idx → EReal) (idx : SC.Idx → BitVec 32) (b : Fin 128) (o : Fin 65536) :
    result x c idx (ix2 b o) = mix (fun k => x (ix2 b (pick (idx (ix2 k o)))))
      (fun k => c (ix2 k o) * Ideal.ofBits .f32 0x3F800000#32) := rfl

/-- Thirty-two terms added one after the other onto zero are their sum. -/
theorem chain32 (t : Fin 32 → EReal) :
    0 + t 0 + t 1 + t 2 + t 3 + t 4 + t 5 + t 6 + t 7 + t 8 + t 9 + t 10 + t 11 + t 12 + t 13 + t 14 + t 15
      + t 16 + t 17 + t 18 + t 19 + t 20 + t 21 + t 22 + t 23 + t 24 + t 25 + t 26 + t 27 + t 28 + t 29 + t 30 + t 31
      = ∑ k : Fin 32, t k := by
  simp only [Fin.sum_univ_castSucc, Fin.sum_univ_zero]
  rfl

end Cert.SoftmaxMix

end
-- ==== Proof.PreDecode.lean ====
/-
  The precondition read at an index: every index word lies in `[−65536, 65536)`.

  The precondition is a conjunction of four all-reductions; its last two say, entry by entry, that the index word is at
  least −65536 and below 65536 as signed numbers.
-/
import proofs.«404579_j1494648619382_2_alg».proof.Pre_finite_inputs
import proofs.«404579_j1494648619382_2_alg».proof.Proof.Gen.Pre_finite_inputs
import proofs.«404579_j1494648619382_2_alg».proof.Proof.Spec
import Idealize.ShloMosaic.Lib.ReduceAll

noncomputable section

namespace Cert.SoftmaxMix

open Idealize.ShloMosaic Idealize.ShloMosaic.ValueIdx

/-- The shape of a scalar has exactly one index: the empty tuple of coordinates. -/
instance subsingleton_scalarIdx : Subsingleton Cert.Pre_finite_inputs.S_.Idx :=
  ⟨fun a b => funext fun d => d.elim0⟩

/-- Under the precondition every index word is in range: the precondition is a conjunction of four "for all entries"
    statements, and the last two, read at the entry `(k, o)`, are the two signed comparisons of the index word against
    `−65536` and `65536` (each bound a scalar constant spread over the whole array, so at every entry it is that
    constant). -/
theorem inRange_of_pre [Cert.Pre_finite_inputs.Facts] (x : FVec Ideal Cert.Pre_finite_inputs.S128x65536 .f32)
    (c : FVec Ideal Cert.Pre_finite_inputs.S32x65536 .f32) (idx : IVec Cert.Pre_finite_inputs.S32x65536 32)
    (h : Cert.Pre_finite_inputs.fn (F := Ideal) x c idx = fun _ => 1#1) (k : Fin 32) (o : Fin 65536) :
    InRange (idx (ix2 k o)) := by
  -- the precondition's one bit, as a conjunction of four bits
  have e := congrFun h ValueIdx.ix0
  dsimp only [Cert.Pre_finite_inputs.fn, Cert.Pre_finite_inputs.fn_part1] at e
  unfold andi at e
  obtain ⟨e123, e4⟩ := IntOp.andi_eq_one.1 e
  obtain ⟨-, e3⟩ := IntOp.andi_eq_one.1 e123
  -- a conjunction over all entries that holds, holds at the entry `(k, o)`
  have g3 := Host.reduce_andi_all _ _ _ _ _ e3 (ix2 k o)
  have g4 := Host.reduce_andi_all _ _ _ _ _ e4 (ix2 k o)
  exact ⟨g3, g4⟩

end Cert.SoftmaxMix

end
-- ==== Proof.KernelBlocks.lean ====
/-
  The kernel's grid: which rows of the arrays each point's blocks are.

  Grid point `t` (of 64) works on rows `1024 t, …, 1024 t + 1023`: its value block is the slab `[·, 1024 t + p, ·]` of the
  gathered array `[32, 65536, 128]`, its logit block rows `1024 t + p` of the logit array `[65536, 32]`, its output block the
  same rows of the output array `[65536, 128]`.
-/
import proofs.«404579_j1494648619382_2_alg».proof.Proof.Gen.KernelIdeal.Frame
import Idealize.ShloMosaic.Lib.ValueIdx

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable {F : FTy → Type} [FloatOps F]

/-- The printed index maps over the grid: the value window moves along its middle axis, the logit window and the output
    window along their first, all three with the point's number. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0)

theorem point_lt (t : Fin cfg0.N) : t.val < 64 := by
  have h := t.isLt
  have hN : cfg0.N = 64 := N_0
  omega

/-- Row `p` of point `t`'s blocks is row `1024 t + p` of the arrays. -/
def rowOf (t : Fin cfg0.N) (p : Fin 1024) : Fin 65536 :=
  ⟨t.val * 1024 + p.val, by have := point_lt t; have := p.isLt; omega⟩

/-- Where the output block's entry `(p, q)` lies in the output array. -/
theorem emb_out (t : Fin cfg0.N) (j : S1024x128.Idx) :
    ((cfg0.win 2).blk t).view.emb j = ix2 (rowOf t (j 0)) (j 1) := by
  obtain ⟨e0, e1, e2, e3, e4, e5, e6⟩ := idx_facts t
  funext a; apply Fin.ext
  match a with
  | ⟨0, _⟩ => show win0_2.index t (0 : Fin 2) * 1024 + 1 * (j 0).val = t.val * 1024 + (j 0).val; omega
  | ⟨1, _⟩ => show win0_2.index t (1 : Fin 2) * 128 + 1 * (j 1).val = (j 1).val; omega

/-- Where the value block's entry `(k, p, q)` lies in the gathered array. -/
theorem emb_val (t : Fin cfg0.N) (k : Fin 32) (p : Fin 1024) (q : Fin 128) :
    ((cfg0.win 0).blk t).view.emb (ix3 k p q) = ix3 k (rowOf t p) q := by
  obtain ⟨e0, e1, e2, e3, e4, e5, e6⟩ := idx_facts t
  funext a; apply Fin.ext
  match a with
  | ⟨0, _⟩ => show win0_0.index t (0 : Fin 3) * 32 + 1 * k.val = k.val; omega
  | ⟨1, _⟩ => show win0_0.index t (1 : Fin 3) * 1024 + 1 * p.val = t.val * 1024 + p.val; omega
  | ⟨2, _⟩ => show win0_0.index t (2 : Fin 3) * 128 + 1 * q.val = q.val; omega

/-- Where the logit block's entry `(p, k)` lies in the logit array. -/
theorem emb_logit (t : Fin cfg0.N) (p : Fin 1024) (k : Fin 32) :
    ((cfg0.win 1).blk t).view.emb (ix2 p k) = ix2 (rowOf t p) k := by
  obtain ⟨e0, e1, e2, e3, e4, e5, e6⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 32 + 1 * k.val = k.val; omega

/-- Point `t`'s value block, read off ANY array of the gathered array's shape: entry `(k, p, q)` is the array's at
    `(k, 1024 t + p, q)`. -/
theorem read_val {F : FTy → Type} [FloatOps F] (A : Vec F S32x65536x128 .f32) (t : Fin cfg0.N) (k : Fin 32) (p : Fin 1024) (q : Fin 128) :
    ((cfg0.win 0).blk t).view.read (Elt F) A (ix3 k p q) = A (ix3 k (rowOf t p) q) := by
  show A (((cfg0.win 0).blk t).view.emb (ix3 k p q)) = _
  rw [emb_val t k p q]

/-- Point `t`'s logit block, read off ANY array of the logit array's shape: entry `(p, k)` is the array's at
    `(1024 t + p, k)`. -/
theorem read_logit {F : FTy → Type} [FloatOps F] (A : Vec F S65536x32 .f32) (t : Fin cfg0.N) (p : Fin 1024) (k : Fin 32) :
    ((cfg0.win 1).blk t).view.read (Elt F) A (ix2 p k) = A (ix2 (rowOf t p) k) := by
  show A (((cfg0.win 1).blk t).view.emb (ix2 p k)) = _
  rw [emb_logit t p k]

end Cert.KernelIdeal.KValue

end
-- ==== Proof.IndexRange.lean ====
/-
  Index words in range: what the wrap leaves, and the range test of the wrapped word.

  For a signed 32-bit word `i` with `−65536 ≤ i < 65536`, the wrapped word (`i + 65536` when `i < 0`, else `i`) lies in
  `[0, 65536)`, so both signed tests "at least 0" and "at most 65535" of it hold.

  Everything is read through the signed value of a word: a comparison's bit is one exactly when the signed values
  compare so, and the sum `i + 65536` of a negative in-range word stays inside `[0, 65536)`, far from the ends of the
  32-bit signed range, so the word sum's signed value is the integers' sum.
-/
import proofs.«404579_j1494648619382_2_alg».proof.Proof.Spec
import Idealize.ShloMosaic.Lib.StableHlo.Predicate
import Idealize.ShloMosaic.Lib.Affine
import Idealize.ShloMosaic.Lib.WordArith

noncomputable section

namespace Cert.SoftmaxMix

open Idealize.ShloMosaic Idealize.ShloMosaic.ValueIdx

/-- The word `4294901760` (`2³² − 65536`) read signed is `−65536`. -/
theorem toInt_negBound : (4294901760#32 : BitVec 32).toInt = -65536 := by decide

/-- The word `65536` read signed is `65536`. -/
theorem toInt_bound : (65536#32 : BitVec 32).toInt = 65536 := by decide

/-- The zero word read signed is `0`. -/
theorem toInt_zeroWord : (0#32 : BitVec 32).toInt = 0 := by decide

/-- The word `65535` read signed is `65535`. -/
theorem toInt_lastCol : (65535#32 : BitVec 32).toInt = 65535 := by decide

/-- The two comparison bits of `InRange` say that the signed value of the word lies in `[−65536, 65536)`. -/
theorem inRange_iff (i : BitVec 32) : InRange i ↔ -65536 ≤ i.toInt ∧ i.toInt < 65536 := by
  unfold InRange
  rw [IntOp.cmpi_sge, IntOp.cmpi_slt, toInt_negBound, toInt_bound]

/-- The signed value of the wrapped word of an in-range index word: `i + 65536` for a negative `i`, else `i`, as
    integers (the word sum does not leave the signed range). -/
theorem wrapIdx_toInt (i : BitVec 32) (h : InRange i) :
    (wrapIdx i).toInt = if i.toInt < 0 then i.toInt + 65536 else i.toInt := by
  obtain ⟨h1, h2⟩ := (inRange_iff i).1 h
  unfold wrapIdx
  by_cases hn : i.toInt < 0
  · -- the sign test is the bit one: the first branch, the sum
    have hc : IntOp.cmpi .slt i 0#32 = 1#1 := IntOp.cmpi_slt.2 (by rw [toInt_zeroWord]; exact hn)
    rw [hc, select_one, if_pos hn]
    unfold IntOp.addi
    rw [WordArith.toInt_add_of_bounds _ _ (by rw [toInt_bound]; omega) (by rw [toInt_bound]; omega), toInt_bound]
  · -- the sign test is the bit zero: the second branch, the word itself
    have hc : IntOp.cmpi .slt i 0#32 = 0#1 :=
      eq_zero_of_ne_one fun e => hn (by have := IntOp.cmpi_slt.1 e; rwa [toInt_zeroWord] at this)
    rw [hc, select_zero, if_neg hn]

/-- The wrapped word of an in-range index word lies in `[0, 65536)`, read signed. -/
theorem wrap_inb (i : BitVec 32) (h : InRange i) : 0 ≤ (wrapIdx i).toInt ∧ (wrapIdx i).toInt < 65536 := by
  obtain ⟨h1, h2⟩ := (inRange_iff i).1 h
  rw [wrapIdx_toInt i h]
  split <;> omega

/-- Both range tests of the wrapped word hold, joined: the bit one. -/
theorem wrap_mask (i : BitVec 32) (h : InRange i) :
    IntOp.andi (IntOp.cmpi .sge (wrapIdx i) 0#32) (IntOp.cmpi .sle (wrapIdx i) 65535#32) = 1#1 := by
  obtain ⟨h0, h1⟩ := wrap_inb i h
  refine IntOp.andi_eq_one.2 ⟨IntOp.cmpi_sge.2 ?_, IntOp.cmpi_sle.2 ?_⟩
  · rw [toInt_zeroWord]; exact h0
  · rw [toInt_lastCol]; omega

end Cert.SoftmaxMix

end
-- ==== Proof.KernelHost.lean ====
/-
  The two arrays the kernel's region reads, as the host lines before it leave them.

  The gathered array holds, at `(k, o, b)`, the entry `x[b, j]` of the argument `x` at the column `j` the index word
  `idx[k, o]` names — for an in-range word the range mask is one, so the filled take keeps the gathered entry. The logit
  array holds, at `(o, k)`, the argument `c[k, o]` times the constant one.
-/
import proofs.«404579_j1494648619382_2_alg».proof.Proof.Gen.KernelIdeal.Frame
import proofs.«404579_j1494648619382_2_alg».proof.Proof.Spec
import proofs.«404579_j1494648619382_2_alg».proof.Proof.IndexRange
import Idealize.ShloMosaic.Lib.ValueLayout
import Idealize.ShloMosaic.Lib.StableHlo.Run
import Idealize.ShloMosaic.Lib.Pipeline.Frame

noncomputable section

namespace Cert.KernelIdeal.HostValue

open Idealize.ShloMosaic Idealize.ShloMosaic.TcCoe Idealize.ShloMosaic.ValueIdx Idealize.SL.Sem
open Cert.KernelIdeal Cert.SoftmaxMix

/-! ## The filled take, over any table and any index words -/

/-- Folding `and` from the bit one along a list whose every bit is one leaves the bit one. -/
private theorem foldl_and_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 by decide]
    exact ih fun n hn => h n (List.mem_cons_of_mem _ hn)

/-- The column of start indices the take builds from the index words `w`: every word wrapped once where it is negative
    (`w + 65536`), the `[32, 65536]` array of wrapped words laid out as `[32, 65536, 1]`. -/
def indexColumn (w : IVec S32x65536 32) : IVec S32x65536x1 32 :=
  broadcastInDim S32x65536x1 ![0, 1] Gen.bcast_S32x65536_S32x65536x1_0_1
    (select (cmpi .slt w (broadcastInDim S32x65536 ![] Gen.bcast_S_S32x65536 (constantI S_ 32 0#32)))
      (addi w (broadcastInDim S32x65536 ![] Gen.bcast_S_S32x65536 (constantI S_ 32 65536#32))) w)

/-- The range mask of the take, one bit per index word: the wrapped word is at least `0` and at most `65535` (both
    signed), the two tests joined and reduced by `and`, from the bit one, along the column's unit axis. -/
def rangeMask (w : IVec S32x65536 32) : IVec S32x65536 1 :=
  Host.reduce IntOp.andi
    (andi (cmpi .sge (indexColumn w) (broadcastInDim S32x65536x1 ![] Gen.bcast_S_S32x65536x1 (constantI S_ 32 0#32)))
      (cmpi .sle (indexColumn w)
        (broadcastInDim S32x65536x1 ![0, 1, 2] Gen.bcast_S1x1x1_S32x65536x1_0_1_2
          (broadcastInDim S1x1x1 ![2] Gen.bcast_S1_S1x1x1_2 (constantI S1 32 65535#32)))))
    (constantI S_ 1 1#1) Gen.reducesTo_S32x65536x1_S32x65536_d2 Gen.h_S_

/-- The filled take of the table `x` at the index words `w`: where the range mask is one, the row of `x` transposed that
    the start index names (clamped into the table), entry by entry along the last axis; elsewhere the quiet NaN. -/
def filledTake {F : FTy → Type} [FloatOps F] (x : FVec F S128x65536 .f32) (w : IVec S32x65536 32) :
    FVec F S32x65536x128 .f32 :=
  select (broadcastInDim S32x65536x128 ![0, 1] Gen.bcast_S32x65536_S32x65536x128_0_1 (rangeMask w))
    (Host.gather gather_S65536x128_S32x65536x1_S32x65536x128_2_0_n_n_0_2_1128
      (transpose S65536x128 [1, 0] x Gen.transposes_S128x65536_S65536x128_1_0) (indexColumn w))
    (broadcastInDim S32x65536x128 ![] Gen.bcast_S_S32x65536x128 (constant (F := F) S_ .f32 0x7FC00000#32))

/-- The start index at `(k, o, 0)` is the index word `w[k, o]` wrapped. -/
theorem indexColumn_apply (w : IVec S32x65536 32) (k : Fin 32) (o : Fin 65536) :
    indexColumn w (ix3 k o (0 : Fin 1)) = wrapIdx (w (ix2 k o)) := by
  unfold indexColumn
  rw [broadcastInDim_apply _ _ _ _ (ix2 k o) (fun a => by match a with | ⟨0, _⟩ => rfl | ⟨1, _⟩ => rfl)]
  rfl

/-- With every index word in range, the joined range test is the bit one at every entry of the column. -/
theorem tests_all_one (w : IVec S32x65536 32) (hw : ∀ (k : Fin 32) (o : Fin 65536), InRange (w (ix2 k o)))
    (i : S32x65536x1.Idx) :
    andi (cmpi .sge (indexColumn w) (broadcastInDim S32x65536x1 ![] Gen.bcast_S_S32x65536x1 (constantI S_ 32 0#32)))
      (cmpi .sle (indexColumn w)
        (broadcastInDim S32x65536x1 ![0, 1, 2] Gen.bcast_S1x1x1_S32x65536x1_0_1_2
          (broadcastInDim S1x1x1 ![2] Gen.bcast_S1_S1x1x1_2 (constantI S1 32 65535#32)))) i = 1#1 := by
  obtain ⟨k, o, z, rfl⟩ : ∃ (k : Fin 32) (o : Fin 65536) (z : Fin 1), i = ix3 k o z := ⟨i 0, i 1, i 2, eq_ix3 i⟩
  obtain rfl : z = 0 := Subsingleton.elim _ _
  show IntOp.andi (IntOp.cmpi .sge (indexColumn w (ix3 k o (0 : Fin 1))) 0#32)
    (IntOp.cmpi .sle (indexColumn w (ix3 k o (0 : Fin 1))) 65535#32) = 1#1
  rw [indexColumn_apply]
  exact wrap_mask _ (hw k o)

/-- With every index word in range, the range mask is the bit one everywhere: an `and` of ones from the bit one. -/
theorem rangeMask_apply (w : IVec S32x65536 32) (hw : ∀ (k : Fin 32) (o : Fin 65536), InRange (w (ix2 k o)))
    (j : S32x65536.Idx) : rangeMask w j = 1#1 := by
  unfold rangeMask
  rw [Host.reduce_eq_foldl]
  exact foldl_and_ones _ _ (fun i _ => tests_all_one w hw i)

section Gather
variable (col : IVec S32x65536x1 32) (k : Fin 32) (o : Fin 65536) (b : Fin 128)

/-- On the table's row axis (start-indexed and collapsed) the gather reads, for the result entry `(k, o, b)`, the row the
    start index at `(k, o, 0)` names: the word read signed, clamped into `[0, 65535]`. -/
private theorem operand_row :
    (gather_S65536x128_S32x65536x1_S32x65536x128_2_0_n_n_0_2_1128.operandIdx (ix3 k o b) col (0 : Fin 2)).val
      = min (col (ix3 k o (0 : Fin 1))).toInt.toNat 65535 := by
  have hmem : (0 : Fin 2) ∈ gather_S65536x128_S32x65536x1_S32x65536x128_2_0_n_n_0_2_1128.startIndexMap :=
    List.mem_singleton.mpr rfl
  show gather_S65536x128_S32x65536x1_S32x65536x128_2_0_n_n_0_2_1128.start (ix3 k o b) col 0
    + gather_S65536x128_S32x65536x1_S32x65536x128_2_0_n_n_0_2_1128.batchCoord (ix3 k o b) 0
    + gather_S65536x128_S32x65536x1_S32x65536x128_2_0_n_n_0_2_1128.offCoord (ix3 k o b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hmem]
  have hsi : gather_S65536x128_S32x65536x1_S32x65536x128_2_0_n_n_0_2_1128.siIdx (ix3 k o b)
      ⟨List.idxOf (0 : Fin 2) gather_S65536x128_S32x65536x1_S32x65536x128_2_0_n_n_0_2_1128.startIndexMap,
        List.idxOf_lt_length_iff.2 hmem⟩ = ix3 k o (0 : Fin 1) := by
    funext a
    refine Fin.ext ?_
    match a with
    | ⟨0, _⟩ => rfl
    | ⟨1, _⟩ => rfl
    | ⟨2, _⟩ => rfl
  rw [hsi]
  rfl

/-- On the table's other axis (kept whole, not start-indexed) the gather reads the result's last coordinate `b`. -/
private theorem operand_lane :
    (gather_S65536x128_S32x65536x1_S32x65536x128_2_0_n_n_0_2_1128.operandIdx (ix3 k o b) col (1 : Fin 2)).val = b.val := by
  have hnot : (1 : Fin 2) ∉ ([0] : List (Fin 2)) := fun h => absurd (List.mem_singleton.mp h) (by decide)
  show gather_S65536x128_S32x65536x1_S32x65536x128_2_0_n_n_0_2_1128.start (ix3 k o b) col 1
    + gather_S65536x128_S32x65536x1_S32x65536x128_2_0_n_n_0_2_1128.batchCoord (ix3 k o b) 1
    + gather_S65536x128_S32x65536x1_S32x65536x128_2_0_n_n_0_2_1128.offCoord (ix3 k o b) 1 = _
  rw [GatherDims.batchCoord_eq_zero _ _ _ List.not_mem_nil, Nat.add_zero]
  unfold GatherDims.start
  rw [dif_neg (show (1 : Fin 2) ∉ gather_S65536x128_S32x65536x1_S32x65536x128_2_0_n_n_0_2_1128.startIndexMap from hnot),
    Nat.zero_add]
  unfold GatherDims.offCoord
  rw [dif_pos (show (1 : Fin 2) ∈ gather_S65536x128_S32x65536x1_S32x65536x128_2_0_n_n_0_2_1128.sKept from
    (GatherDims.mem_sKept _ _).mpr ⟨hnot, List.not_mem_nil⟩)]
  rfl

/-- THE GATHER AT `(k, o, b)`: the table `t : [65536, 128]` at the row the start index at `(k, o, 0)` names (read signed,
    clamped into `[0, 65535]`) and column `b`. The row is given as any `r` with that value. -/
theorem gather_apply {α : Type} (t : S65536x128.Idx → α) (r : Fin 65536)
    (hr : r.val = min (col (ix3 k o (0 : Fin 1))).toInt.toNat 65535) :
    Host.gather gather_S65536x128_S32x65536x1_S32x65536x128_2_0_n_n_0_2_1128 t col (ix3 k o b) = t (ix2 r b) := by
  unfold Host.gather
  refine congrArg t (funext fun a => Fin.ext ?_)
  match a with
  | ⟨0, _⟩ => exact (operand_row col k o b).trans hr.symm
  | ⟨1, _⟩ => exact operand_lane col k o b

end Gather

/-- THE FILLED TAKE AT `(k, o, b)`, every index word in range: the table at row `b` and the column the word `w[k, o]`
    names. The mask is one there, so the gathered entry is kept; the gathered row of the transposed table is the wrapped
    word clamped into the table, which is `pick`. -/
theorem filledTake_apply {F : FTy → Type} [FloatOps F] (x : FVec F S128x65536 .f32) (w : IVec S32x65536 32)
    (hw : ∀ (k : Fin 32) (o : Fin 65536), InRange (w (ix2 k o))) (k : Fin 32) (o : Fin 65536) (b : Fin 128) :
    filledTake x w (ix3 k o b) = x (ix2 b (pick (w (ix2 k o)))) := by
  unfold filledTake
  have hm : broadcastInDim S32x65536x128 ![0, 1] Gen.bcast_S32x65536_S32x65536x128_0_1 (rangeMask w) (ix3 k o b) = 1#1 :=
    rangeMask_apply w hw _
  rw [select_apply, hm, select_one,
    gather_apply (indexColumn w) k o b _ (pick (w (ix2 k o))) (by rw [indexColumn_apply]; rfl),
    transpose_ix2_apply]

/-! ## The two arrays as launched -/

section Stretches
variable {F : FTy → Type} [FloatOps F] (m : (ℓ : Loc nD τ sig) → Buf (Elt F) ℓ) (c : Dev nD)

/-- A line of host operations cut at any place: the contents after the whole line are the contents after its tail, from
    the contents after its head. -/
private theorem after_cut (n : Nat) (l : List (HloOp τ sig (Elt F))) (V : Valuation τ sig (Elt F)) :
    StableHlo.after l V = StableHlo.after (l.drop n) (StableHlo.after (l.take n) V) := by
  rw [← StableHlo.after_append, List.take_append_drop]

/-- Contents carried to a typed reference's buffer and read back are the contents. -/
private theorem ofBuf_toBuf {T : BufTy} (x : StableHlo.TRef sig T) (v : T.Contents (Elt F)) :
    x.ofBuf (Val := Elt F) (x.toBuf (Val := Elt F) v) = v := by
  obtain ⟨r, rfl, _, _⟩ := x
  rfl

/-- Read at the value's type, the transposed table's buffer holds what it holds: the two types are the same. -/
private theorem read_table (v : FVec F S65536x128 .f32) :
    (StableHlo.TRef.of main_v2 : StableHlo.TRef sig ⟨S65536x128, .f32⟩).ofBuf (Val := Elt F) v = v := rfl
/-- The same for the index column's buffer, -/
private theorem read_column (v : IVec S32x65536x1 32) :
    (StableHlo.TRef.of main_call0_v5 : StableHlo.TRef sig ⟨S32x65536x1, .i32⟩).ofBuf (Val := Elt F) v = v := rfl
/-- for the mask's buffer, read -/
private theorem read_mask (v : IVec S32x65536 1) :
    (StableHlo.TRef.of main_call0_v12 : StableHlo.TRef sig ⟨S32x65536, .i1⟩).ofBuf (Val := Elt F) v = v := rfl
/-- and written, -/
private theorem write_mask (v : IVec S32x65536 1) :
    (StableHlo.TRef.of main_call0_v12 : StableHlo.TRef sig ⟨S32x65536, .i1⟩).toBuf (Val := Elt F) v = v := rfl
/-- and for the result's buffer, written. -/
private theorem write_result (v : FVec F S32x65536x128 .f32) :
    (StableHlo.TRef.of main_v3 : StableHlo.TRef sig ⟨S32x65536x128, .f32⟩).toBuf (Val := Elt F) v = v := rfl

/-- The buffers' contents once the index column is written: after the four lines before the take and the take's first
    eight. -/
private def upToColumn : Valuation τ sig (Elt F) :=
  StableHlo.after (Gen.hostOps0_1.take 8) (StableHlo.after Gen.hostOps0 (fun b => m (c, b)))

/-- The buffers' contents once the range mask is written: ten lines further. -/
private def upToMask : Valuation τ sig (Elt F) :=
  StableHlo.after ((Gen.hostOps0_1.drop 8).take 10) (upToColumn m c)

/-- The contents the region finds are those after the take's last five lines and the logits' transpose, from the
    contents once the mask is written. -/
private theorem V0_cut :
    Gen.V0 m c = StableHlo.after Gen.hostOps0_2 (StableHlo.after ((Gen.hostOps0_1.drop 8).drop 10) (upToMask m c)) := by
  unfold upToMask upToColumn
  rw [← after_cut, ← after_cut]
  dsimp only [Gen.V0]
  rw [List.flatten_cons, List.flatten_cons, List.flatten_cons, List.flatten_nil, List.append_nil,
    StableHlo.after_append, StableHlo.after_append]

/-- Once the column is written, its buffer holds the index column of the launched index words. -/
private theorem column_eq :
    (upToColumn m c (Proc.devRef .tc main_call0_v5) : IVec S32x65536x1 32)
      = indexColumn (m ((c : Thread nD τ).loc main_arg2)) := by
  unfold upToColumn
  simp only [Gen.hostOps0, Gen.hostOps0_1, List.take_succ_cons, List.take_zero]
  after_results_simp
  rfl

/-- And the transposed table's buffer holds the launched table transposed. -/
private theorem table_eq :
    (upToColumn m c (Proc.devRef .tc main_v2) : FVec F S65536x128 .f32)
      = transpose S65536x128 [1, 0] (m ((c : Thread nD τ).loc main_arg0)) Gen.transposes_S128x65536_S65536x128_1_0 := by
  unfold upToColumn
  simp only [Gen.hostOps0, Gen.hostOps0_1, List.take_succ_cons, List.take_zero]
  after_results_simp

/-- The ten lines that make the mask leave the column's buffer as it was, -/
private theorem mask_keeps_column :
    upToMask m c (Proc.devRef .tc main_call0_v5) = upToColumn m c (Proc.devRef .tc main_call0_v5) := by
  unfold upToMask
  simp only [Gen.hostOps0_1, List.drop_succ_cons, List.drop_zero, List.take_succ_cons, List.take_zero]
  after_results_simp

/-- and the transposed table's. -/
private theorem mask_keeps_table :
    upToMask m c (Proc.devRef .tc main_v2) = upToColumn m c (Proc.devRef .tc main_v2) := by
  unfold upToMask
  simp only [Gen.hostOps0_1, List.drop_succ_cons, List.drop_zero, List.take_succ_cons, List.take_zero]
  after_results_simp

/-- Once the mask is written, its buffer holds the range mask of the launched index words. -/
private theorem mask_eq :
    (upToMask m c (Proc.devRef .tc main_call0_v12) : IVec S32x65536 1)
      = rangeMask (m ((c : Thread nD τ).loc main_arg2)) := by
  unfold upToMask
  simp only [Gen.hostOps0_1, List.drop_succ_cons, List.drop_zero, List.take_succ_cons, List.take_zero]
  after_results_simp
  simp only [ofBuf_toBuf]
  rw [column_eq]
  simp only [read_column, write_mask]
  unfold rangeMask
  rfl

/-- Over any model of the floats: the array the host lines leave in the gathered buffer is the filled take of the
    launched table at the launched index words. -/
theorem gathered_term :
    (Gen.V m c main_v3 : S32x65536x128.Idx → F .f32)
      = filledTake (m ((c : Thread nD τ).loc main_arg0)) (m ((c : Thread nD τ).loc main_arg2)) := by
  show Gen.V0 m c (Proc.devRef .tc main_v3) = _
  rw [V0_cut]
  simp only [Gen.hostOps0_1, Gen.hostOps0_2, List.drop_succ_cons, List.drop_zero]
  after_results_simp
  simp only [ofBuf_toBuf]
  rw [mask_eq, mask_keeps_column, column_eq, mask_keeps_table, table_eq]
  simp only [read_table, read_column, read_mask, write_result]
  unfold filledTake
  rfl

end Stretches

variable (m : (ℓ : Loc nD τ sig) → Buf (Elt Ideal) ℓ)

/-- Core `c`'s three argument arrays as launched, each at its literal type: the table `x`, the logits `c`, the index words. -/
abbrev argX (c : Dev nD) : S128x65536.Idx → EReal := m ((c : Thread nD τ).loc main_arg0)
abbrev argC (c : Dev nD) : S32x65536.Idx → EReal := m ((c : Thread nD τ).loc main_arg1)
abbrev argI (c : Dev nD) : S32x65536.Idx → BitVec 32 := m ((c : Thread nD τ).loc main_arg2)

/-- The two arrays the region reads, each at its literal type. -/
abbrev gathered (c : Dev nD) : S32x65536x128.Idx → EReal := Gen.V m c main_v3
abbrev logits (c : Dev nD) : S65536x32.Idx → EReal := Gen.V m c main_v4

/-- The gathered array is the filled take of the launched table at the launched index words. -/
theorem gathered_eq (c : Dev nD) : gathered m c = filledTake (F := Ideal) (argX m c) (argI m c) :=
  gathered_term m c

/-- The gathered array at `(k, o, b)`, every index word in range. -/
theorem V_gathered (c : Dev nD) (hr : ∀ (k : Fin 32) (o : Fin 65536), InRange (argI m c (ix2 k o)))
    (k : Fin 32) (o : Fin 65536) (b : Fin 128) :
    gathered m c (ix3 k o b) = argX m c (ix2 b (pick (argI m c (ix2 k o)))) :=
  (congrFun (gathered_eq m c) (ix3 k o b)).trans (filledTake_apply (F := Ideal) (argX m c) (argI m c) hr k o b)

/-- The logit array at `(o, k)`. -/
theorem V_logits (c : Dev nD) (o : Fin 65536) (k : Fin 32) :
    logits m c (ix2 o k) = argC m c (ix2 k o) * Ideal.ofBits .f32 0x3F800000#32 := by
  show Gen.V m c main_v4 (ix2 o k) = _
  dsimp only [Gen.V, Gen.V0]
  simp only [Gen.hostOps0, Gen.hostOps0_1, Gen.hostOps0_2, List.flatten_cons, List.flatten_nil, List.append_nil,
    List.cons_append, List.nil_append]
  after_results_simp
  rw [transpose_ix2_apply]
  rfl

end Cert.KernelIdeal.HostValue

end
-- ==== Proof.LibKeepdims.lean ====
/-
  Two layout forms of a kept unit column, read at an index, at any sizes.

  A reduction that keeps its reduced axis as a unit axis leaves a vector of `a` entries cast to an `[a, 1]` column, and
  the column is then spread across `b` columns: at `(i, 0)` the column holds the vector's entry `i`, and at `(p, c)` the
  spread array holds the column's entry in row `p`.
-/
import Idealize.ShloMosaic.Lib.ValueLayout
import Idealize.ShloMosaic.Lib.Pipeline.Value

noncomputable section

namespace Cert.LibKeepdims

open Idealize.ShloMosaic Idealize.ShloMosaic.ValueIdx

variable {α : Type}

/-- A vector of `a` entries cast to an `[a, 1]` column reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Body.lean ====
/-
  What the kernel's body leaves in its output block, entry by entry.

  The body turns the rows of its logit block `x1 : [1024, 32]` into softmax weights and adds, for `k = 0, …, 31`, the
  slab `k` of its value block `x0 : [32, 1024, 128]` times the weights' column `k`, onto zero. At `(p, q)` that is the
  mix of `x0[·, p, q]` by the softmax of row `p` of `x1`.
-/
import proofs.«404579_j1494648619382_2_alg».proof.Proof.Gen.KernelIdeal.Frame
import proofs.«404579_j1494648619382_2_alg».proof.Proof.Spec
import proofs.«404579_j1494648619382_2_alg».proof.Proof.LibKeepdims
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx
open Cert.KernelIdeal Cert.SoftmaxMix Cert.LibKeepdims

variable {α : Type}

/-! ## The softmax of the logit block's rows -/

/-- The index of the logit block over row `p` with `k` put on the reduced axis is `(p, k)`. -/
theorem lift_row (h : S1024x32.Reduces [1] S1024) (p : Fin 1024) (k : Fin 32) : h.lift (ix1 p) k = ix2 p k := by
  funext c; apply Fin.ext
  match c with
  | ⟨0, _⟩ => rfl
  | ⟨1, _⟩ => rfl

/-- The rows' maxima, kept as a column and spread back over the block, read at `(p, k)` the maximum of row `p`. -/
theorem rowmax_col (src : FVec Ideal S1024x32 .f32) (h : S1024x32.Reduces [1] S1024) (hφ : FKind.Formats .f32)
    (hacc : (0xFF800000#32 : BitVec 32) = FKind.maximumf.neutral .f32 hφ) (hc : S1024.ShapeCasts S1024x1)
    (hb : S1024x1.Broadcasts S1024x32) (p : Fin 1024) (k : Fin 32) :
    broadcastTo S1024x32 (shapeCast S1024x1 (multiReduction (F := Ideal) .maximumf [1] S1024 src 0xFF800000#32 h hφ hacc) hc) hb (ix2 p k)
      = rowMax (fun k' => src (ix2 p k')) := by
  rw [broadcastTo_a1_ab_apply, shapeCast_a_a1_apply]
  refine (Ideal.multiReduction_maximumf_single src _ h hφ hacc (ix1 p)).trans ?_
  exact congrArg (fun f => (Finset.univ : Finset (Fin 32)).fold max (Ideal.ofBits .f32 0xFF800000#32) f)
    (funext fun k' => congrArg src (lift_row h p k'))

/-- The rows' sums, kept as a column and spread back over the block, read at `(p, k)` the sum of row `p`. -/
theorem rowsum_col (src : FVec Ideal S1024x32 .f32) (h : S1024x32.Reduces [1] S1024) (hφ : FKind.Formats .f32)
    (hacc : (0x00000000#32 : BitVec 32) = FKind.add.neutral .f32 hφ) (hc : S1024.ShapeCasts S1024x1)
    (hb : S1024x1.Broadcasts S1024x32) (p : Fin 1024) (k : Fin 32) :
    broadcastTo S1024x32 (shapeCast S1024x1 (multiReduction (F := Ideal) .add [1] S1024 src 0x00000000#32 h hφ hacc) hc) hb (ix2 p k)
      = ∑ k' : Fin 32, src (ix2 p k') := by
  rw [broadcastTo_a1_ab_apply, shapeCast_a_a1_apply]
  refine (Ideal.multiReduction_add_single src _ h hφ hacc (ix1 p)).trans ?_
  exact Finset.sum_congr rfl fun k' _ => congrArg src (lift_row h p k')

/-- The block shifted by its rows' maxima and exponentiated reads, at `(p, k)`, the shifted exponential of entry `k`
    of row `p`. -/
theorem shifted_apply (v : FVec Ideal S1024x32 .f32) (h : S1024x32.Reduces [1] S1024) (hφ : FKind.Formats .f32)
    (hacc : (0xFF800000#32 : BitVec 32) = FKind.maximumf.neutral .f32 hφ) (hc : S1024.ShapeCasts S1024x1)
    (hb : S1024x1.Broadcasts S1024x32) (p : Fin 1024) (k : Fin 32) :
    exp (subf v (broadcastTo S1024x32 (shapeCast S1024x1 (multiReduction (F := Ideal) .maximumf [1] S1024 v 0xFF800000#32 h hφ hacc) hc) hb)) (ix2 p k)
      = rowExp (fun k' => v (ix2 p k')) k := by
  show Ideal.exp (v (ix2 p k) - broadcastTo S1024x32 _ hb (ix2 p k)) = _
  rw [rowmax_col]
  rfl

/-- The softmax payload at `(p, k)` is the softmax weight of entry `k` of row `p` of the block. -/
theorem softmax_apply (v : FVec Ideal S1024x32 .f32) (p : Fin 1024) (k : Fin 32) :
    Gen.k0_pay2 (F := Ideal) v (ix2 p k) = rowWeight (fun k' => v (ix2 p k')) k := by
  unfold Gen.k0_pay2
  rw [shapeCast_self]
  refine (divf_apply _ _ _).trans ?_
  refine (congrArg₂ Ideal.div (shifted_apply v _ _ _ _ _ p k)
    ((rowsum_col _ _ _ _ _ _ p k).trans (Finset.sum_congr rfl fun k' _ => shifted_apply v _ _ _ _ _ p k'))).trans ?_
  rfl

/-! ## One step of the weighted sum -/

/-- One step: the accumulator plus a value slab times a column of the weights reads, at `(p, q)`, the accumulator
    there plus the slab's entry times the weight of row `p` in that column. -/
theorem step_apply (k : Nat) (c : Fin 32) (hc : c.val = k) (acc : FVec Ideal S1024x128 .f32)
    (slab : FVec Ideal S1x1024x128 .f32) (w : FVec Ideal S1024x32 .f32) (hs : S1024x32.Slices ![0, k] S1024x1)
    (h1 : S1x1024x128.ShapeCasts S1024x128) (h2 : S1024x1.Broadcasts S1024x128) (p : Fin 1024) (q : Fin 128) :
    addf acc (mulf (shapeCast S1024x128 slab h1) (broadcastTo S1024x128 (extractStridedSlice S1024x1 ![0, k] w hs) h2)) (ix2 p q)
      = acc (ix2 p q) + slab (ix3 (0 : Fin 1) p q) * w (ix2 p c) := by
  show acc (ix2 p q) + shapeCast S1024x128 slab h1 (ix2 p q)
      * broadcastTo S1024x128 (extractStridedSlice S1024x1 ![0, k] w hs) h2 (ix2 p q) = _
  rw [shapeCast_1ab_ab_apply, broadcastTo_a1_ab_apply, slice2_axis1_apply k w hs p 0 c hc]

/-- The same step when the slab is already cast and the column already cut. -/
theorem step_col_apply (acc : FVec Ideal S1024x128 .f32) (s : FVec Ideal S1024x128 .f32) (col : FVec Ideal S1024x1 .f32)
    (h2 : S1024x1.Broadcasts S1024x128) (p : Fin 1024) (q : Fin 128) :
    addf acc (mulf s (broadcastTo S1024x128 col h2)) (ix2 p q) = acc (ix2 p q) + s (ix2 p q) * col (ix2 p (0 : Fin 1)) := by
  show acc (ix2 p q) + s (ix2 p q) * broadcastTo S1024x128 col h2 (ix2 p q) = _
  rw [broadcastTo_a1_ab_apply]

/-- A loaded slab of the value block: the load through the rectangle of sizes `[1, 1024, 128]` at offset `(k, 0, 0)`
    reads, at `(0, p, q)`, the block's entry `(k, p, q)`. -/
theorem slab_apply (x : Vec Ideal S32x1024x128 .f32) (k : Nat)
    (inb : ∀ a, (![k, 0, 0] : Fin 3 → Nat) a + S1x1024x128.size a ≤ S32x1024x128.size a) (p : Fin 1024) (q : Fin 128) :
    View.ld x (Rect.unit (s := S32x1024x128) ![k, 0, 0] S1x1024x128.size inb) (ix3 (0 : Fin 1) p q)
      = x (ix3 (⟨k, inb 0⟩ : Fin 32) p q) := by
  show x _ = x _
  congr 1
  funext a; apply Fin.ext
  match a with
  | ⟨0, _⟩ => show k + 1 * 0 = k; omega
  | ⟨1, _⟩ => show 0 + 1 * p.val = p.val; omega
  | ⟨2, _⟩ => show 0 + 1 * q.val = q.val; omega

/-! ## The payloads, each at an entry -/

/-- Steps 0 to 3, from zero. -/
theorem pay3_apply (v0 : FVec Ideal S1024x32 .f32) (s0 s1 s2 s3 : FVec Ideal S1x1024x128 .f32) (p : Fin 1024) (q : Fin 128) :
    Gen.k0_pay3 (F := Ideal) v0 s0 s1 s2 s3 (ix2 p q)
      = 0 + s0 (ix3 (0 : Fin 1) p q) * Gen.k0_pay2 (F := Ideal) v0 (ix2 p 0)
          + s1 (ix3 (0 : Fin 1) p q) * Gen.k0_pay2 (F := Ideal) v0 (ix2 p 1)
          + s2 (ix3 (0 : Fin 1) p q) * Gen.k0_pay2 (F := Ideal) v0 (ix2 p 2)
          + s3 (ix3 (0 : Fin 1) p q) * Gen.k0_pay2 (F := Ideal) v0 (ix2 p 3) := by
  unfold Gen.k0_pay3
  rw [step_apply 3 3 rfl, step_apply 2 2 rfl, step_apply 1 1 rfl, step_apply 0 0 rfl]
  rw [broadcast_apply, Ideal.ofBits_def, Ideal.ofBits_zero_f32]

/-- The cast slab handed to the next part reads, at `(p, q)`, the slab's entry `(0, p, q)`. -/
theorem pay4_apply (s : FVec Ideal S1x1024x128 .f32) (p : Fin 1024) (q : Fin 128) :
    Gen.k0_pay4 (F := Ideal) s (ix2 p q) = s (ix3 (0 : Fin 1) p q) := by
  unfold Gen.k0_pay4
  exact shapeCast_1ab_ab_apply s _ p q

/-- The weight column 4 handed to the next part reads, in row `p`, the softmax payload at `(p, 4)`. -/
theorem pay5_apply (v0 : FVec Ideal S1024x32 .f32) (p : Fin 1024) :
    Gen.k0_pay5 (F := Ideal) v0 (ix2 p (0 : Fin 1)) = Gen.k0_pay2 (F := Ideal) v0 (ix2 p 4) := by
  unfold Gen.k0_pay5
  exact slice2_axis1_apply 4 _ _ p 0 4 rfl

/-- Steps 4 to 10 onto the incoming accumulator; step 4's slab and column come in already cast and cut. -/
theorem pay6_apply (w : FVec Ideal S1024x32 .f32) (acc s4 : FVec Ideal S1024x128 .f32) (c4 : FVec Ideal S1024x1 .f32)
    (s5 s6 s7 s8 s9 s10 : FVec Ideal S1x1024x128 .f32) (p : Fin 1024) (q : Fin 128) :
    Gen.k0_pay6 (F := Ideal) w acc s4 c4 s5 s6 s7 s8 s9 s10 (ix2 p q)
      = acc (ix2 p q) + s4 (ix2 p q) * c4 (ix2 p (0 : Fin 1))
          + s5 (ix3 (0 : Fin 1) p q) * w (ix2 p 5) + s6 (ix3 (0 : Fin 1) p q) * w (ix2 p 6) + s7 (ix3 (0 : Fin 1) p q) * w (ix2 p 7)
          + s8 (ix3 (0 : Fin 1) p q) * w (ix2 p 8) + s9 (ix3 (0 : Fin 1) p q) * w (ix2 p 9) + s10 (ix3 (0 : Fin 1) p q) * w (ix2 p 10) := by
  unfold Gen.k0_pay6
  rw [step_apply 10 10 rfl, step_apply 9 9 rfl, step_apply 8 8 rfl, step_apply 7 7 rfl, step_apply 6 6 rfl,
    step_apply 5 5 rfl, step_col_apply]

/-- Steps 11 to 17 onto the incoming accumulator. -/
theorem pay7_apply (w : FVec Ideal S1024x32 .f32) (acc : FVec Ideal S1024x128 .f32)
    (s11 s12 s13 s14 s15 s16 s17 : FVec Ideal S1x1024x128 .f32) (p : Fin 1024) (q : Fin 128) :
    Gen.k0_pay7 (F := Ideal) w acc s11 s12 s13 s14 s15 s16 s17 (ix2 p q)
      = acc (ix2 p q) + s11 (ix3 (0 : Fin 1) p q) * w (ix2 p 11) + s12 (ix3 (0 : Fin 1) p q) * w (ix2 p 12)
          + s13 (ix3 (0 : Fin 1) p q) * w (ix2 p 13) + s14 (ix3 (0 : Fin 1) p q) * w (ix2 p 14) + s15 (ix3 (0 : Fin 1) p q) * w (ix2 p 15)
          + s16 (ix3 (0 : Fin 1) p q) * w (ix2 p 16) + s17 (ix3 (0 : Fin 1) p q) * w (ix2 p 17) := by
  unfold Gen.k0_pay7
  rw [step_apply 17 17 rfl, step_apply 16 16 rfl, step_apply 15 15 rfl, step_apply 14 14 rfl, step_apply 13 13 rfl,
    step_apply 12 12 rfl, step_apply 11 11 rfl]

/-- Steps 18 to 23 onto the incoming accumulator. -/
theorem pay8_apply (w : FVec Ideal S1024x32 .f32) (acc : FVec Ideal S1024x128 .f32)
    (s18 s19 s20 s21 s22 s23 : FVec Ideal S1x1024x128 .f32) (p : Fin 1024) (q : Fin 128) :
    Gen.k0_pay8 (F := Ideal) w acc s18 s19 s20 s21 s22 s23 (ix2 p q)
      = acc (ix2 p q) + s18 (ix3 (0 : Fin 1) p q) * w (ix2 p 18) + s19 (ix3 (0 : Fin 1) p q) * w (ix2 p 19)
          + s20 (ix3 (0 : Fin 1) p q) * w (ix2 p 20) + s21 (ix3 (0 : Fin 1) p q) * w (ix2 p 21) + s22 (ix3 (0 : Fin 1) p q) * w (ix2 p 22)
          + s23 (ix3 (0 : Fin 1) p q) * w (ix2 p 23) := by
  unfold Gen.k0_pay8
  rw [step_apply 23 23 rfl, step_apply 22 22 rfl, step_apply 21 21 rfl, step_apply 20 20 rfl, step_apply 19 19 rfl,
    step_apply 18 18 rfl]

/-- The second cast slab handed across a part boundary reads, at `(p, q)`, the slab's entry `(0, p, q)`. -/
theorem pay9_apply (s : FVec Ideal S1x1024x128 .f32) (p : Fin 1024) (q : Fin 128) :
    Gen.k0_pay9 (F := Ideal) s (ix2 p q) = s (ix3 (0 : Fin 1) p q) := by
  unfold Gen.k0_pay9
  exact shapeCast_1ab_ab_apply s _ p q

/-- The weight column 24 handed across a part boundary reads, in row `p`, the weight at `(p, 24)`. -/
theorem pay10_apply (w : FVec Ideal S1024x32 .f32) (p : Fin 1024) :
    Gen.k0_pay10 (F := Ideal) w (ix2 p (0 : Fin 1)) = w (ix2 p 24) := by
  unfold Gen.k0_pay10
  exact slice2_axis1_apply 24 _ _ p 0 24 rfl

/-- Steps 24 to 30 onto the incoming accumulator; step 24's slab and column come in already cast and cut. -/
theorem pay11_apply (w : FVec Ideal S1024x32 .f32) (acc s24 : FVec Ideal S1024x128 .f32) (c24 : FVec Ideal S1024x1 .f32)
    (s25 s26 s27 s28 s29 s30 : FVec Ideal S1x1024x128 .f32) (p : Fin 1024) (q : Fin 128) :
    Gen.k0_pay11 (F := Ideal) w acc s24 c24 s25 s26 s27 s28 s29 s30 (ix2 p q)
      = acc (ix2 p q) + s24 (ix2 p q) * c24 (ix2 p (0 : Fin 1))
          + s25 (ix3 (0 : Fin 1) p q) * w (ix2 p 25) + s26 (ix3 (0 : Fin 1) p q) * w (ix2 p 26) + s27 (ix3 (0 : Fin 1) p q) * w (ix2 p 27)
          + s28 (ix3 (0 : Fin 1) p q) * w (ix2 p 28) + s29 (ix3 (0 : Fin 1) p q) * w (ix2 p 29) + s30 (ix3 (0 : Fin 1) p q) * w (ix2 p 30) := by
  unfold Gen.k0_pay11
  rw [step_apply 30 30 rfl, step_apply 29 29 rfl, step_apply 28 28 rfl, step_apply 27 27 rfl, step_apply 26 26 rfl,
    step_apply 25 25 rfl, step_col_apply]

/-- The last step, 31, onto the incoming accumulator: the stored payload. -/
theorem pay1_apply (w : FVec Ideal S1024x32 .f32) (acc : FVec Ideal S1024x128 .f32) (s31 : FVec Ideal S1x1024x128 .f32)
    (p : Fin 1024) (q : Fin 128) :
    Gen.k0_pay1 (F := Ideal) w acc s31 (ix2 p q) = acc (ix2 p q) + s31 (ix3 (0 : Fin 1) p q) * w (ix2 p 31) := by
  unfold Gen.k0_pay1
  rw [step_apply 31 31 rfl]

/-! ## The output block -/

/-- The offsets of the whole-block rectangles are zero on both axes. -/
theorem zero_offsets : (![0, 0] : Fin 2 → Nat) = fun _ => 0 := funext fun a => by fin_cases a <;> rfl

/-- The output block at `(p, q)`. -/
theorem out_apply (x0 : Vec Ideal S32x1024x128 .f32) (x1 : Vec Ideal S1024x32 .f32) (p : Fin 1024) (q : Fin 128) :
    Gen.out0_2 (F := Ideal) x0 x1 (ix2 p q) = mix (fun k => x0 (ix3 k p q)) (fun k => x1 (ix2 p k)) := by
  unfold Gen.out0_2
  rw [View.canon_unit_zero zero_offsets]
  simp only [View.ld_unit_zero (S := S1024x32) zero_offsets]
  rw [pay1_apply, pay11_apply, pay8_apply, pay7_apply, pay6_apply, pay3_apply, pay4_apply, pay5_apply, pay9_apply,
    pay10_apply]
  simp only [softmax_apply]
  rw [slab_apply x0 0, slab_apply x0 1, slab_apply x0 2, slab_apply x0 3, slab_apply x0 4, slab_apply x0 5,
    slab_apply x0 6, slab_apply x0 7, slab_apply x0 8, slab_apply x0 9, slab_apply x0 10, slab_apply x0 11,
    slab_apply x0 12, slab_apply x0 13, slab_apply x0 14, slab_apply x0 15, slab_apply x0 16, slab_apply x0 17,
    slab_apply x0 18, slab_apply x0 19, slab_apply x0 20, slab_apply x0 21, slab_apply x0 22, slab_apply x0 23,
    slab_apply x0 24, slab_apply x0 25, slab_apply x0 26, slab_apply x0 27, slab_apply x0 28, slab_apply x0 29,
    slab_apply x0 30, slab_apply x0 31]
  exact chain32 (fun k => x0 (ix3 k p q) * rowWeight (fun k' => x1 (ix2 p k')) k)

end Cert.KernelIdeal.BodyValue

end
-- ==== Proof.KernelValue.lean ====
/-
  What each grid point writes back: a block of the specification's result, transposed.

  Point `t`'s value block holds, at `(k, p, q)`, the table entry `x[q, pick idx[k, 1024 t + p]]` (every index word in range),
  and its logit block, at `(p, k)`, the logit `c[k, 1024 t + p] · 1`. The body mixes the first by the softmax of the second,
  so the output block's entry `(p, q)` is the result at `(q, 1024 t + p)`.
-/
import proofs.«404579_j1494648619382_2_alg».proof.Proof.KernelBlocks
import proofs.«404579_j1494648619382_2_alg».proof.Proof.KernelHost
import proofs.«404579_j1494648619382_2_alg».proof.Proof.Body
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.HostValue Cert.KernelIdeal.BodyValue Cert.SoftmaxMix

variable (m : (ℓ : Loc nD τ sig) → Buf (Elt Ideal) ℓ)

/-- The region's output array: the specification's result, transposed. -/
def outT (c : Dev nD) : S65536x128.Idx → EReal :=
  fun i => result (argX m c) (argC m c) (argI m c) (ix2 (i 1) (i 0))

/-- Point `t`'s value block and logit block, each at its literal type. -/
abbrev vblk (c : Dev nD) (t : Fin cfg0.N) : Vec Ideal S32x1024x128 .f32 := iblk m c 0 t
abbrev lblk (c : Dev nD) (t : Fin cfg0.N) : Vec Ideal S1024x32 .f32 := iblk m c 1 t

/-- The value block's entry `(k, p, q)` is the table's entry in row `q` at the column the index word `idx[k, 1024 t + p]`
    names. -/
theorem vblk_apply (c : Dev nD) (hr : ∀ (k : Fin 32) (o : Fin 65536), InRange (argI m c (ix2 k o))) (t : Fin cfg0.N)
    (k : Fin 32) (p : Fin 1024) (q : Fin 128) :
    vblk m c t (ix3 k p q) = argX m c (ix2 q (pick (argI m c (ix2 k (rowOf t p))))) := by
  unfold vblk iblk
  refine (read_val (F := Ideal) (Gen.V m c (Pipeline.arrRef spec0 0)) t k p q).trans ?_
  exact V_gathered m c hr k (rowOf t p) q

/-- The logit block's entry `(p, k)` is the logit `c[k, 1024 t + p] · 1`. -/
theorem lblk_apply (c : Dev nD) (t : Fin cfg0.N) (p : Fin 1024) (k : Fin 32) :
    lblk m c t (ix2 p k) = argC m c (ix2 k (rowOf t p)) * Ideal.ofBits .f32 0x3F800000#32 := by
  unfold lblk iblk
  refine (read_logit (F := Ideal) (Gen.V m c (Pipeline.arrRef spec0 1)) t p k).trans ?_
  exact V_logits m c (rowOf t p) k

/-- The output block's entry `(p, q)` is the transposed result at `(1024 t + p, q)`: both are the mix of the same 32 table
    entries by the softmax of the same 32 logits. -/
theorem block_apply (c : Dev nD) (hr : ∀ (k : Fin 32) (o : Fin 65536), InRange (argI m c (ix2 k o))) (t : Fin cfg0.N)
    (p : Fin 1024) (q : Fin 128) :
    out0_2 (vblk m c t) (lblk m c t) (ix2 p q) = outT m c (ix2 (rowOf t p) q) := by
  refine (out_apply (vblk m c t) (lblk m c t) p q).trans ?_
  show mix _ _ = mix (fun k => argX m c (ix2 q (pick (argI m c (ix2 k (rowOf t p))))))
    (fun k => argC m c (ix2 k (rowOf t p)) * Ideal.ofBits .f32 0x3F800000#32)
  exact congrArg₂ mix (funext fun k => vblk_apply m c hr t k p q) (funext fun k => lblk_apply m c t p k)

/-- WHAT POINT `t` WRITES BACK is block `t` of the transposed result. -/
theorem flushed_eq (c : Dev nD) (hr : ∀ (k : Fin 32) (o : Fin 65536), InRange (argI m c (ix2 k o))) (t : Fin cfg0.N) :
    (dats m 0 c).flushed 2 t = ((cfg0.win 2).blk t).view.read (Elt Ideal) (outT m c) := by
  show (cfg0.win 2).cut (grid0.coords t) ((dats m 0 c).after 2 t) = _
  rw [after0_2]
  funext j
  show out0_2 (vblk m c t) (lblk m c t) j = outT m c (((cfg0.win 2).blk t).view.emb j)
  rw [emb_out t j]
  have hj : (j : S1024x128.Idx) = ix2 (j 0) (j 1) := eq_ix2 (n0 := 1024) (n1 := 128) j
  refine (congrArg (out0_2 (vblk m c t) (lblk m c t)) hj).trans ?_
  exact block_apply m c hr t (j 0) (j 1)

end Cert.KernelIdeal.KValue

end
-- ==== Proof.KernelArray.lean ====
/-
  The region's output array after all 64 points: the specification's result, transposed, at every index.

  Row `r` of the output array `[65536, 128]` lies in the block of point `r / 1024`, so the blocks tile the array, and each
  point writes its block of one whole-array function.
-/
import proofs.«404579_j1494648619382_2_alg».proof.Proof.KernelValue
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.HostValue Cert.SoftmaxMix

variable (m : (ℓ : Loc nD τ sig) → Buf (Elt Ideal) ℓ)

/-- An index of the output array is in point `t`'s block iff each coordinate is in the block's range on its axis. -/
theorem mem_blk (t : Fin cfg0.N) (i : S65536x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v5).slice (win0_2.rect t)).set ↔ _
  rw [View.set_slice_whole, Rect.mem_set_unit]
  exact Iff.rfl

/-- The 64 blocks tile the output array: row `r` lies in the block of point `r / 1024`. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 64 := N_0
  refine ⟨⟨(i 0).val / 1024, by omega⟩, flush0_2 _, ?_⟩
  rw [mem_blk]
  obtain ⟨e0, e1, e2, e3, e4, e5, e6⟩ := idx_facts ⟨(i 0).val / 1024, by omega⟩
  intro a
  match a with
  | ⟨0, _⟩ =>
    show win0_2.index _ (0 : Fin 2) * 1024 ≤ (i 0).val ∧ (i 0).val < win0_2.index _ (0 : Fin 2) * 1024 + 1024
    rw [e5]; show (i 0).val / 1024 * 1024 ≤ (i 0).val ∧ (i 0).val < (i 0).val / 1024 * 1024 + 1024; omega
  | ⟨1, _⟩ =>
    show win0_2.index _ (1 : Fin 2) * 128 ≤ (i 1).val ∧ (i 1).val < win0_2.index _ (1 : Fin 2) * 128 + 128
    rw [e6]; omega

/-- THE OUTPUT ARRAY after the region: the transposed result, at every index. -/
theorem final (c : Dev nD) (hr : ∀ (k : Fin 32) (o : Fin 65536), InRange (argI m c (ix2 k o))) :
    (dats m 0 c).arrAt 2 cfg0.N = outT m c :=
  (dats m 0 c).arrAt_eq_of_cover 2 (outT m c) (fun t _ => flushed_eq m c hr t) cover

end Cert.KernelIdeal.KValue

end
-- ==== Proof.KernelRun.lean ====
/-
  The kernel's program run, with its result named.

  After the region the host transposes the output array `[65536, 128]` into the result `[128, 65536]`; the output array is the
  specification's result transposed, so the result is the specification's function of the arguments.
-/
import proofs.«404579_j1494648619382_2_alg».proof.Proof.KernelArray
import Idealize.ShloMosaic.Lib.Pipeline.Value
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.HostValue Cert.SoftmaxMix

variable (m : (ℓ : Loc nD τ sig) → Buf (Elt Ideal) ℓ) (ρ : Dev nD → PrngReg)

/-- The host's last line transposes the region's output array into the result. -/
theorem tail_eq (c : Dev nD) (hr : ∀ (k : Fin 32) (o : Fin 65536), InRange (argI m c (ix2 k o))) :
    Pipeline.afterTail₀ cfgs (dats m) 0 (V0 m) [hostOps1] c main_v6 = result (argX m c) (argC m c) (argI m c) := by
  unfold Pipeline.afterTail₀
  show StableHlo.after hostOps1 _ (Proc.devRef .tc main_v6) = _
  after_results
  -- the transpose's operand is the region's output array as the run leaves it: the transposed result
  have hw : Pipeline.withArrays (cfgs 0).spec c (V0 m c) (fun w => (dats m 0 c).arrAt w (cfgs 0).N) (Proc.devRef .tc main_v5)
      = outT m c :=
    (Pipeline.withArrays_arr spec0 launch0.win.arr_inj c _ _ 2).trans (final m c hr)
  rw [hw]
  funext i
  obtain ⟨b, o, rfl⟩ : ∃ (b : Fin 128) (o : Fin 65536), i = ix2 b o := ⟨i 0, i 1, eq_ix2 i⟩
  rw [transpose_ix2_apply]
  rfl

/-- THE RUN, with the result named: under in-range index words on every core, every weakly fair execution of the kernel's
    program terminates with the result array at the specification's function of the arguments, the arguments unchanged. -/
theorem run (hr : ∀ (c : Dev nD) (k : Fin 32) (o : Fin 65536), InRange (argI m c (ix2 k o))) :
    θ_run defs (onTc (τ := τ) (main (F := Ideal))) ⟨m, fun _ => 0, ρ⟩ (fun r => ∀ c : Dev nD,
      r.2.mem ((c.tc : Thread nD τ).loc main_v6) = result (argX m c) (argC m c) (argI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's result is the specification's function of the arguments.

  Read one operation at a time: the gather reads `x[b, j]` at the column the wrapped, clamped index word names; the
  softmax over the first axis is the row softmax of the 32 logits of a column; the last sum mixes the gathered entries.
-/
import proofs.«404579_j1494648619382_2_alg».proof.Proof.Gen.ReferenceIdeal.Read
import proofs.«404579_j1494648619382_2_alg».proof.Proof.Spec
import Idealize.ShloMosaic.Lib.ValueLayout

noncomputable section

namespace Cert.ReferenceIdeal.RefValue

open Idealize.ShloMosaic Idealize.ShloMosaic.ValueIdx
open Cert.ReferenceIdeal Cert.SoftmaxMix

/-! ## The gather read at an index

The table `x : [128, 65536]` is read at a column of start indices laid out `[32, 65536, 1]`. The result's axis 0 runs over
the table's whole axis 0 (an offset axis, slice size 128); the table's axis 1 is collapsed and is the one the start index
names. So result element `(b, k, o)` is the table at row `b` and at the column the word `col[k, o, 0]` names, read signed
and clamped into `[0, 65535]`. -/

/-- The printed gather's dimension numbers. -/
abbrev gd : GatherDims S128x65536 S32x65536x1 S128x32x65536 :=
  gather_S128x65536_S32x65536x1_S128x32x65536_0_1_n_n_1_2_1281

/-- The table's axis 0 is not the start-indexed, collapsed axis 1. -/
private theorem zero_not_mem_one : (0 : Fin 2) ∉ ([1] : List (Fin 2)) :=
  fun h => absurd (List.mem_singleton.mp h) (by decide)

/-- On the table's axis 0 the operand index of result element `(b, k, o)` is `b`: no start index names this axis, it is not
    a batching axis, and the offset coordinate is the result's coordinate on its one offset axis, axis 0. -/
theorem operand_axis0 (col : IVec S32x65536x1 32) (b : Fin 128) (k : Fin 32) (o : Fin 65536) :
    (gd.operandIdx (ix3 b k o) col (0 : Fin 2)).val = b.val := by
  show gd.start (ix3 b k o) col (0 : Fin 2) + gd.batchCoord (ix3 b k o) (0 : Fin 2) + gd.offCoord (ix3 b k o) (0 : Fin 2) = _
  rw [GatherDims.batchCoord_eq_zero _ _ _ List.not_mem_nil]
  unfold GatherDims.start
  rw [dif_neg (show (0 : Fin 2) ∉ gd.startIndexMap from zero_not_mem_one)]
  unfold GatherDims.offCoord
  rw [dif_pos (show (0 : Fin 2) ∈ gd.sKept from (GatherDims.mem_sKept _ _).mpr ⟨zero_not_mem_one, List.not_mem_nil⟩)]
  simp only [Nat.add_zero, Nat.zero_add]
  rfl

/-- On the table's axis 1 the operand index of result element `(b, k, o)` is the start index `col[k, o, 0]` read signed and
    clamped into `[0, 65535]`: the axis is collapsed (no offset) and is not a batching axis. -/
theorem operand_axis1 (col : IVec S32x65536x1 32) (b : Fin 128) (k : Fin 32) (o : Fin 65536) :
    (gd.operandIdx (ix3 b k o) col (1 : Fin 2)).val = min (col (ix3 k o (0 : Fin 1))).toInt.toNat 65535 := by
  show gd.start (ix3 b k o) col (1 : Fin 2) + gd.batchCoord (ix3 b k o) (1 : Fin 2) + gd.offCoord (ix3 b k o) (1 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gd.startIndexMap from List.mem_singleton.mpr rfl)]
  -- the start index of `(b, k, o)` is read at the result's batch coordinates `(k, o)`, component 0 of the index vector
  have hsi : gd.siIdx (ix3 b k o) ⟨List.idxOf (1 : Fin 2) gd.startIndexMap,
      List.idxOf_lt_length_iff.2 (List.mem_singleton.mpr rfl)⟩ = ix3 k o (0 : Fin 1) := by
    funext c; refine Fin.ext ?_
    match c with
    | ⟨0, _⟩ => rfl
    | ⟨1, _⟩ => rfl
    | ⟨2, _⟩ => rfl
  rw [hsi]
  rfl

/-- THE GATHER READ AT `(b, k, o)`: the table at row `b`, at the column the start index `col[k, o, 0]` names once read signed
    and clamped into the table. -/
theorem gather_apply {α : Type} (x : S128x65536.Idx → α) (col : IVec S32x65536x1 32) (b : Fin 128) (k : Fin 32) (o : Fin 65536) :
    Host.gather gd x col (ix3 b k o)
      = x (ix2 b (⟨min (col (ix3 k o (0 : Fin 1))).toInt.toNat 65535, by omega⟩ : Fin 65536)) := by
  unfold Host.gather
  congr 1
  funext a
  refine Fin.ext ?_
  match a with
  | ⟨0, _⟩ => exact operand_axis0 col b k o
  | ⟨1, _⟩ => exact operand_axis1 col b k o

/-! ## The maximum over a column's 32 logits -/

/-- The reduced index `o` with row `k` put back on the dropped axis 0 is `(k, o)`. -/
private theorem lift_col (h : S32x65536.Reduces [0] S65536) (o : Fin 65536) (k : Fin (S32x65536.size 0)) :
    h.lift (ix1 o) k = ix2 (⟨k.val, k.isLt⟩ : Fin 32) o := by
  funext c; refine Fin.ext ?_
  match c with
  | ⟨0, _⟩ => rfl
  | ⟨1, _⟩ => rfl

/-- From −∞ the maximum-reduction over axis 0 of a `[32, 65536]` array is, at column `o`, the largest of that column's
    32 entries (the maximum taken from −∞). -/
theorem colMax_apply (y : FVec Ideal S32x65536 .f32) (o : Fin 65536) :
    Host.reduce FloatOps.maximumf y (constant (F := Ideal) S_ .f32 0xFF800000#32) Gen.reducesTo_S32x65536_S65536_d0 Gen.h_S_ (ix1 o)
      = rowMax (fun k => y (ix2 k o)) := by
  have h : S32x65536.Reduces [0] S65536 := by decide
  rw [Host.reduce_eq_fold_single FloatOps.maximumf y _ Gen.reducesTo_S32x65536_S65536_d0 h Gen.h_S_]
  have hf : (y ∘ h.lift (ix1 o)) = fun k : Fin 32 => y (ix2 k o) := funext fun k => congrArg y (lift_col h o k)
  unfold rowMax
  exact congrArg (fun f => Finset.fold max (Ideal.ofBits .f32 0xFF800000#32) f (Finset.univ : Finset (Fin 32))) hf

/-! ## The stages of the reference at an index -/

/-- The index column at `(k, o, 0)` is the index word `idx[k, o]` wrapped once: `idx + 65536` where it is negative. -/
theorem idxCol_apply (idx : (⟨S32x65536, .i32⟩ : BufTy).Contents (Elt Ideal)) (k : Fin 32) (o : Fin 65536) :
    Read.val_main_v5 (F := Ideal) idx (ix3 k o (0 : Fin 1)) = wrapIdx (idx (ix2 k o)) := by
  rw [Read.val_main_v5_apply,
    show Read.idx_main_v5 (ix3 k o (0 : Fin 1)) = ix2 k o from
      funext fun a => Fin.ext (by match a with | ⟨0, _⟩ => rfl | ⟨1, _⟩ => rfl),
    Read.val_main_v4_apply, Read.val_main_v1_apply, Read.val_main_v3_apply, Read.val_main_v0_apply,
    Read.val_main_v2_apply, Read.val_main_c_apply, Read.val_main_c_0_apply]
  rfl

/-- The gathered array at `(b, k, o)` is the table at row `b` and at the column the index word `idx[k, o]` names: the
    wrapped word read signed and clamped into the table is that column by definition. -/
theorem gathered_apply (x : (⟨S128x65536, .f32⟩ : BufTy).Contents (Elt Ideal))
    (idx : (⟨S32x65536, .i32⟩ : BufTy).Contents (Elt Ideal)) (b : Fin 128) (k : Fin 32) (o : Fin 65536) :
    Read.val_main_v6 (F := Ideal) x idx (ix3 b k o) = x (ix2 b (pick (idx (ix2 k o)))) := by
  unfold Read.val_main_v6
  rw [gather_apply]
  refine congrArg (fun j : Fin 65536 => x (ix2 b j)) (Fin.ext ?_)
  show min (Read.val_main_v5 (F := Ideal) idx (ix3 k o (0 : Fin 1))).toInt.toNat 65535
    = min (wrapIdx (idx (ix2 k o))).toInt.toNat 65535
  rw [idxCol_apply]

/-- The logit at `(k, o)`: the entry `c[k, o]` times the constant one. -/
theorem logit_apply (c : (⟨S32x65536, .f32⟩ : BufTy).Contents (Elt Ideal)) (k : Fin 32) (o : Fin 65536) :
    Read.val_main_v8 (F := Ideal) c (ix2 k o) = c (ix2 k o) * Ideal.ofBits .f32 0x3F800000#32 := by
  rw [Read.val_main_v8_apply, Read.val_main_v7_apply, Read.val_main_cst_apply]
  rfl

/-- The shift of column `o`: the maximum of −∞ and the column's largest logit, which is that largest logit, since a
    maximum taken from −∞ is at least −∞. -/
theorem shift_apply (c : (⟨S32x65536, .f32⟩ : BufTy).Contents (Elt Ideal)) (o : Fin 65536) :
    Read.val_main_v11 (F := Ideal) c (ix1 o)
      = rowMax (fun k => c (ix2 k o) * Ideal.ofBits .f32 0x3F800000#32) := by
  have h9 : Read.val_main_v9 (F := Ideal) c (ix1 o) = rowMax (fun k => Read.val_main_v8 (F := Ideal) c (ix2 k o)) :=
    colMax_apply (Read.val_main_v8 (F := Ideal) c) o
  rw [Read.val_main_v11_apply, Read.val_main_v10_apply, Read.val_main_cst_2_apply, h9]
  simp only [logit_apply]
  show max (Ideal.ofBits .f32 0xFF800000#32) (rowMax _) = rowMax _
  refine max_eq_right ?_
  unfold rowMax
  exact (Finset.le_fold_max _).2 (Or.inl le_rfl)

/-- The shifted exponential at `(k, o)`: the exponential of the logit less its column's largest logit. -/
theorem expShift_apply (c : (⟨S32x65536, .f32⟩ : BufTy).Contents (Elt Ideal)) (k : Fin 32) (o : Fin 65536) :
    Read.val_main_v15 (F := Ideal) c (ix2 k o)
      = rowExp (fun k => c (ix2 k o) * Ideal.ofBits .f32 0x3F800000#32) k := by
  rw [Read.val_main_v15_apply, Read.val_main_v14_apply, Read.val_main_v13_apply, Read.val_main_v12_apply,
    show Read.idx_main_v12 (Read.idx_main_v13 (ix2 k o)) = ix1 o from
      funext fun a => Fin.ext (by match a with | ⟨0, _⟩ => rfl),
    shift_apply, logit_apply]
  rfl

/-- The normaliser of column `o`: the sum of the column's 32 shifted exponentials (the reduction's initial value is
    zero and adds nothing). -/
theorem expSum_apply (c : (⟨S32x65536, .f32⟩ : BufTy).Contents (Elt Ideal)) (o : Fin 65536) :
    Read.val_main_v16 (F := Ideal) c (ix1 o)
      = rowSum (fun k => c (ix2 k o) * Ideal.ofBits .f32 0x3F800000#32) := by
  rw [Read.val_main_v16_apply, Read.val_main_cst_3_apply]
  simp only [Ideal.ofBits_def, Ideal.ofBits_zero_f32, zero_add]
  unfold rowSum
  refine Finset.sum_congr rfl fun k _ => ?_
  rw [show Read.idx_main_v16 (ix1 o) k = ix2 k o from
      funext fun a => Fin.ext (by match a with | ⟨0, _⟩ => rfl | ⟨1, _⟩ => rfl),
    expShift_apply]

/-- The softmax weight at `(k, o)`: the shifted exponential over the column's normaliser. -/
theorem weight_apply (c : (⟨S32x65536, .f32⟩ : BufTy).Contents (Elt Ideal)) (k : Fin 32) (o : Fin 65536) :
    Read.val_main_v19 (F := Ideal) c (ix2 k o)
      = rowWeight (fun k => c (ix2 k o) * Ideal.ofBits .f32 0x3F800000#32) k := by
  rw [Read.val_main_v19_apply, Read.val_main_v18_apply, Read.val_main_v17_apply,
    show Read.idx_main_v17 (Read.idx_main_v18 (ix2 k o)) = ix1 o from
      funext fun a => Fin.ext (by match a with | ⟨0, _⟩ => rfl),
    expSum_apply, expShift_apply]
  rfl

/-- The reference's last stage is the specification. -/
theorem ref_eq (x : (⟨S128x65536, .f32⟩ : BufTy).Contents (Elt Ideal)) (c : (⟨S32x65536, .f32⟩ : BufTy).Contents (Elt Ideal))
    (idx : (⟨S32x65536, .i32⟩ : BufTy).Contents (Elt Ideal)) :
    Read.val_main_v23 (F := Ideal) x c idx = result x c idx := by
  funext i
  obtain ⟨b, o, rfl⟩ : ∃ (b : Fin 128) (o : Fin 65536), i = ix2 b o := ⟨i 0, i 1, eq_ix2 i⟩
  -- the last stage is zero plus the sum over `k` of the gathered entry times the weight, both at `(b, k, o)`
  rw [result_apply, Read.val_main_v23_apply, Read.val_main_cst_4_apply]
  simp only [Ideal.ofBits_def, Ideal.ofBits_zero_f32, zero_add]
  unfold mix
  refine Finset.sum_congr rfl fun k _ => ?_
  rw [show Read.idx_main_v23 (ix2 b o) k = ix3 b k o from
      funext fun a => Fin.ext (by match a with | ⟨0, _⟩ => rfl | ⟨1, _⟩ => rfl | ⟨2, _⟩ => rfl),
    Read.val_main_v22_apply, gathered_apply, Read.val_main_v21_apply, Read.val_main_v20_apply,
    show Read.idx_main_v20 (Read.idx_main_v21 (ix3 b k o)) = ix2 k o from
      funext fun a => Fin.ext (by match a with | ⟨0, _⟩ => rfl | ⟨1, _⟩ => rfl),
    weight_apply]
  rfl

end Cert.ReferenceIdeal.RefValue

end
-- ==== Proof.lean ====
/-
  The kernel and its jnp reference compute one array over the extended reals.

  Both programs take a table `x : [128, 65536]`, logits `c : [32, 65536]` and index words `idx : [32, 65536]`. For every output
  column `o` the 32 logits `c[k, o] · 1` become softmax weights (shift by the maximum, exponentiate, divide by the sum), and
  the result at `(b, o)` is the weighted sum over `k` of the table entries `x[b, j]`, `j` the column that `idx[k, o]` names
  after a negative word is wrapped by adding 65536. The reference gathers columns of `x` and sums over its middle axis;
  the kernel transposes `x`, gathers rows with a range mask, lets each of 64 grid points mix 1024 output rows, adding the
  32 terms one after the other onto zero, and transposes the result back. Over the extended reals addition is commutative
  and associative, so the order and grouping of the sums do not matter, and no finiteness is used.

  The two programs part only where a wrapped index word leaves `[0, 65536)`: there the kernel's take fills in a NaN
  pattern while the reference's gather clamps. The precondition keeps every index word in `[−65536, 65536)`, the words for
  which the reference's indexing is in range; under it the kernel's range mask is one everywhere (`PreDecode`, `IndexRange`,
  `KernelHost`). The kernel's value is read off its generated frame run: what a grid point writes back (`Body`,
  `KernelValue`), the 64 blocks tiling the output array (`KernelArray`), the transposing tail (`KernelRun`). The reference's
  value is its generated run read one operation at a time (`RefValue`). Both are `Cert.SoftmaxMix.result` of the arguments
  (`Spec`).
-/
import proofs.«404579_j1494648619382_2_alg».proof.Defs
import proofs.«404579_j1494648619382_2_alg».proof.Proof.Gen.Kernel
import proofs.«404579_j1494648619382_2_alg».proof.Proof.Gen.Kernel.Skeleton
import proofs.«404579_j1494648619382_2_alg».proof.Proof.Gen.Kernel.Launch
import proofs.«404579_j1494648619382_2_alg».proof.Proof.Gen.Kernel.Points
import proofs.«404579_j1494648619382_2_alg».proof.Proof.Gen.Kernel.Frame
import proofs.«404579_j1494648619382_2_alg».proof.Proof.Gen.KernelIdeal
import proofs.«404579_j1494648619382_2_alg».proof.Proof.Gen.KernelIdeal.Skeleton
import proofs.«404579_j1494648619382_2_alg».proof.Proof.Gen.KernelIdeal.Launch
import proofs.«404579_j1494648619382_2_alg».proof.Proof.Gen.KernelIdeal.Points
import proofs.«404579_j1494648619382_2_alg».proof.Proof.Gen.KernelIdeal.Frame
import proofs.«404579_j1494648619382_2_alg».proof.Proof.Gen.ReferenceIdeal
import proofs.«404579_j1494648619382_2_alg».proof.Proof.Gen.Pre_finite_inputs
import proofs.«404579_j1494648619382_2_alg».proof.Proof.Gen.ReferenceIdeal.Run
import proofs.«404579_j1494648619382_2_alg».proof.Proof.Gen.ReferenceIdeal.Read
import Idealize.ShloMosaic.Adequacy
import Idealize.ShloMosaic.Init
import proofs.«404579_j1494648619382_2_alg».proof.Proof.PreDecode
import proofs.«404579_j1494648619382_2_alg».proof.Proof.KernelRun
import proofs.«404579_j1494648619382_2_alg».proof.Proof.RefValue

noncomputable section

namespace Cert.Proof

open Idealize.ShloMosaic Idealize.ShloMosaic.TcCoe Idealize.ShloMosaic.ValueIdx Idealize.SL.Sem
open Cert.SoftmaxMix Cert.KernelIdeal.HostValue

/-- The word-level kernel runs and leaves its arguments unchanged: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, with every index word in range, both programs end with the result array at
    the specification's function of the arguments. -/
theorem algebraic : Cert.algebraic_KernelIdeal_ReferenceIdeal := by
  intro m ρ m' ρ' hpre hagree
  have hr : ∀ (c : Dev Cert.KernelIdeal.nD) (k : Fin 32) (o : Fin 65536), InRange (argI m c (ix2 k o)) :=
    fun c k o => inRange_of_pre _ _ _ (hpre c) k o
  refine ⟨fun c => result (argX m c) (argC m c) (argI m c), Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v23_eq (F := Ideal) _ _ _).trans
    (Cert.ReferenceIdeal.RefValue.ref_eq _ _ _)).trans ?_
  exact congr (congr (congrArg result (hagree c).1) (hagree c).2.1) (hagree c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
